-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S16 : Shape := ⟨1, ![16]⟩
abbrev S8x1024x128 : Shape := ⟨3, ![8, 1024, 128]⟩
abbrev S8x128 : Shape := ⟨2, ![8, 128]⟩
abbrev S8x128x1024 : Shape := ⟨3, ![8, 128, 1024]⟩
abbrev S8x1024 : Shape := ⟨2, ![8, 1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S8x1024x128 : S_.BroadcastsInDim S8x1024x128 (![] : Fin 0 → Fin S8x1024x128.rank)
  reducesTo_S8x1024x128_S_d0_1_2 : S8x1024x128.ReducesTo [0, 1, 2] S_
  bcast_S_S8x128 : S_.BroadcastsInDim S8x128 (![] : Fin 0 → Fin S8x128.rank)
  reducesTo_S8x128_S_d0_1 : S8x128.ReducesTo [0, 1] S_
  bcast_S_S8x128x1024 : S_.BroadcastsInDim S8x128x1024 (![] : Fin 0 → Fin S8x128x1024.rank)
  reducesTo_S8x128x1024_S_d0_1_2 : S8x128x1024.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg1 : IVec S16 32) (main_v33 : IVec S_ 1) : IVec S_ 1 :=
  let main_c_12 : IVec S_ 32 := constantI S_ 32 0#32
  let main_v34 : IVec S16 32 := broadcastInDim S16 ![] bcast_S_S16 main_c_12
  let main_v35 : IVec S16 1 := cmpi .sge main_arg1 main_v34
  let main_c_13 : IVec S_ 1 := constantI S_ 1 1#1
  let main_v36 : IVec S_ 1 := (fun x v => Host.reduce IntOp.andi x v reducesTo_S16_S_d0 h_S_) main_v35 main_c_13
  let main_v37 : IVec S_ 1 := andi main_v33 main_v36
  let main_c_14 : IVec S_ 32 := constantI S_ 32 8#32
  let main_v38 : IVec S16 32 := broadcastInDim S16 ![] bcast_S_S16 main_c_14
  let main_v39 : IVec S16 1 := cmpi .slt main_arg1 main_v38
  let main_c_15 : IVec S_ 1 := constantI S_ 1 1#1
  let main_v40 : IVec S_ 1 := (fun x v => Host.reduce IntOp.andi x v reducesTo_S16_S_d0 h_S_) main_v39 main_c_15
  let main_v41 : IVec S_ 1 := andi main_v37 main_v40
  main_v41

def fn_part1 {F : FTy → Type} [FloatOps F] (main_arg1 : IVec S16 32) (main_arg5 : FVec F S8x1024 .f32) (main_arg6 : FVec F S8x1024 .f32) (main_arg7 : FVec F S8x1024 .f32) (main_v13 : IVec S_ 1) (main_v16 : IVec S8x128x1024 1) : IVec S_ 1 :=
  let main_c_5 : IVec S_ 1 := constantI S_ 1 1#1
  let main_v17 : IVec S_ 1 := (fun x v => Host.reduce IntOp.andi x v reducesTo_S8x128x1024_S_d0_1_2 h_S_) main_v16 main_c_5
  let main_v18 : IVec S_ 1 := andi main_v13 main_v17
  let main_v19 : FVec F S8x1024 .f32 := Host.absf main_arg5
  let main_cst_6 : FVec F S_ .f32 := constant S_ .f32 0x7F800000#32
  let main_v20 : FVec F S8x1024 .f32 := broadcastInDim S8x1024 ![] bcast_S_S8x1024 main_cst_6
  let main_v21 : IVec S8x1024 1 := cmpf .olt main_v19 main_v20
  let main_c_7 : IVec S_ 1 := constantI S_ 1 1#1
  let main_v22 : IVec S_ 1 := (fun x v => Host.reduce IntOp.andi x v reducesTo_S8x1024_S_d0_1 h_S_) main_v21 main_c_7
  let main_v23 : IVec S_ 1 := andi main_v18 main_v22
  let main_v24 : FVec F S8x1024 .f32 := Host.absf main_arg6
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  let main_v29 : FVec F S8x1024 .f32 := Host.absf main_arg7
  let main_cst_10 : FVec F S_ .f32 := constant S_ .f32 0x7F800000#32
  let main_v30 : FVec F S8x1024 .f32 := broadcastInDim S8x1024 ![] bcast_S_S8x1024 main_cst_10
  let main_v31 : IVec S8x1024 1 := cmpf .olt main_v29 main_v30
  let main_c_11 : IVec S_ 1 := constantI S_ 1 1#1
  let main_v32 : IVec S_ 1 := (fun x v => Host.reduce IntOp.andi x v reducesTo_S8x1024_S_d0_1 h_S_) main_v31 main_c_11
  let main_v33 : IVec S_ 1 := andi main_v28 main_v32
  fn_part2 (F := F) main_arg1 main_v33

def fn {F : FTy → Type} [FloatOps F] (main_arg0 : FVec F S16x2048x1024 .f32) (main_arg1 : IVec S16 32) (main_arg2 : FVec F S8x1024x128 .f32) (main_arg3 : FVec F S8x128 .f32) (main_arg4 : FVec F S8x128x1024 .f32) (main_arg5 : FVec F S8x1024 .f32) (main_arg6 : FVec F S8x1024 .f32) (main_arg7 : FVec F S8x1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S8x1024x128 .f32 := Host.absf main_arg2
  let main_cst_0 : FVec F S_ .f32 := constant S_ .f32 0x7F800000#32
  let main_v5 : FVec F S8x1024x128 .f32 := broadcastInDim S8x1024x128 ![] bcast_S_S8x1024x128 main_cst_0
  let main_v6 : IVec S8x1024x128 1 := cmpf .olt main_v4 main_v5
  let main_c_1 : IVec S_ 1 := constantI S_ 1 1#1
  let main_v7 : IVec S_ 1 := (fun x v => Host.reduce IntOp.andi x v reducesTo_S8x1024x128_S_d0_1_2 h_S_) main_v6 main_c_1
  let main_v8 : IVec S_ 1 := andi main_v3 main_v7
  let main_v9 : FVec F S8x128 .f32 := Host.absf main_arg3
  let main_cst_2 : FVec F S_ .f32 := constant S_ .f32 0x7F800000#32
  let main_v10 : FVec F S8x128 .f32 := broadcastInDim S8x128 ![] bcast_S_S8x128 main_cst_2
  let main_v11 : IVec S8x128 1 := cmpf .olt main_v9 main_v10
  let main_c_3 : IVec S_ 1 := constantI S_ 1 1#1
  let main_v12 : IVec S_ 1 := (fun x v => Host.reduce IntOp.andi x v reducesTo_S8x128_S_d0_1 h_S_) main_v11 main_c_3
  let main_v13 : IVec S_ 1 := andi main_v8 main_v12
  let main_v14 : FVec F S8x128x1024 .f32 := Host.absf main_arg4
  let main_cst_4 : FVec F S_ .f32 := constant S_ .f32 0x7F800000#32
  let main_v15 : FVec F S8x128x1024 .f32 := broadcastInDim S8x128x1024 ![] bcast_S_S8x128x1024 main_cst_4
  let main_v16 : IVec S8x128x1024 1 := cmpf .olt main_v14 main_v15
  fn_part1 (F := F) main_arg1 main_arg5 main_arg6 main_arg7 main_v13 main_v16
-- ==== Kernel.lean ====
abbrev S16x2048x1024 : Shape := ⟨3, ![16, 2048, 1024]⟩
abbrev S16 : Shape := ⟨1, ![16]⟩
abbrev S8x1024x128 : Shape := ⟨3, ![8, 1024, 128]⟩
abbrev S8x128 : Shape := ⟨2, ![8, 128]⟩
abbrev S8x128x1024 : Shape := ⟨3, ![8, 128, 1024]⟩
abbrev S8x1024 : Shape := ⟨2, ![8, 1024]⟩
abbrev S_ : Shape := ⟨0, ![]⟩
abbrev S1x2048x1024 : Shape := ⟨3, ![1, 2048, 1024]⟩
abbrev S1x1024x128 : Shape := ⟨3, ![1, 1024, 128]⟩
abbrev S1 : Shape := ⟨1, ![1]⟩
abbrev S1x128x1024 : Shape := ⟨3, ![1, 128, 1024]⟩
abbrev S2048x1024 : Shape := ⟨2, ![2048, 1024]⟩
abbrev S1024x128 : Shape := ⟨2, ![1024, 128]⟩
abbrev S128x1024 : Shape := ⟨2, ![128, 1024]⟩
abbrev S1x128 : Shape := ⟨2, ![1, 128]⟩
abbrev S1x1024 : Shape := ⟨2, ![1, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 16
  | .vmem => 12
  | .smem => 1
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S8x1024x128, .f32⟩
  | .hbm, ⟨3, _⟩ => ⟨S8x128, .f32⟩
  | .hbm, ⟨4, _⟩ => ⟨S8x128x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16x2048x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S1x1024x128, .f32⟩
  | .local _ .vmem, ⟨3, _⟩ => ⟨S1x1024x128, .f32⟩
  | .local _ .vmem, ⟨4, _⟩ => ⟨S8x128, .f32⟩
  | .local _ .vmem, ⟨5, _⟩ => ⟨S1x128x1024, .f32⟩
  | .local _ .vmem, ⟨6, _⟩ => ⟨S1x128x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S1x2048x1024, .f32⟩
  | .local _ .vmem, ⟨11, _⟩ => ⟨S1x2048x1024, .f32⟩
  | .local _ .smem, ⟨0, _⟩ => ⟨S16, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v1 : Ref sig .tc := ⟨.hbm, 15, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 2 → Nat :=
  let v8 : Index := Scalar.indexCast v1
  let c0_8 : Index := 0#32
  ![v8.toNat, 0]

def k0_off3 (v1 : BitVec 32) : Fin 2 → Nat :=
  let v10 : Index := Scalar.indexCast v1
  let c0_9 : Index := 0#32
  ![v10.toNat, 0]

def k0_chk1 (v1 : BitVec 32) : Prop :=
  (∀ a, (k0_off2 v1) a + S1x128.size a ≤ S8x128.size a) ∧
  (∀ a, (k0_off3 v1) a + S1x1024.size a ≤ S8x1024.size a)
instance k0_chk1.dec : ∀ (v1 : BitVec 32), Decidable (k0_chk1 v1) := fun v1 => decidable_of_iff' _ (Iff.of_eq (k0_chk1.eq_1 v1))
theorem k0_off2_inb : ∀ (v1 : BitVec 32) (k0_hw1 : k0_chk1 v1), ∀ a, (k0_off2 v1) a + S1x128.size a ≤ S8x128.size a := fun v1 k0_hw1 => k0_hw1.1
theorem k0_off3_inb : ∀ (v1 : BitVec 32) (k0_hw1 : k0_chk1 v1), ∀ a, (k0_off3 v1) a + S1x1024.size a ≤ S8x1024.size a := fun v1 k0_hw1 => k0_hw1.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16 : S_.BroadcastsInDim S16 (![] : Fin 0 → Fin S16.rank)
  numel1_S1 : S1.numel = 1
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  h_S1x128 : 0 < S1x128.numel
  h_S1x1024 : 0 < S1x1024.numel
  broadcasts_S1x128_S2048x128 : S1x128.Broadcasts S2048x128
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  shapeCasts_S2048x1024_S1x2048x1024 : S2048x1024.ShapeCasts S1x2048x1024
  dot_S2048x1024_S1024x128_S2048x128_1_0_0_1_n_n_wf : DotDims.WF S2048x1024 S1024x128 S2048x128 [1] [0] [0] [1] [] []
  dot_S2048x128_S128x1024_S2048x1024_1_0_0_1_n_n_wf : DotDims.WF S2048x128 S128x1024 S2048x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x2048x1024.size a
  hwx0_0 : ∀ i : grid0.Coords, EltTy.bits .f32 = 32 ∨ (Rect.block (s := S16x2048x1024) S1x2048x1024.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S8x1024.size a
  hwx0_5 : ∀ i : grid0.Coords, EltTy.bits .f32 = 32 ∨ (Rect.block (s := S8x1024) S8x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x1024.size a ≤ S8x1024.size a
  hwx0_6 : ∀ i : grid0.Coords, EltTy.bits .f32 = 32 ∨ (Rect.block (s := S8x1024) S8x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x1024.size a ≤ S16x2048x1024.size a
  hwx0_7 : ∀ i : grid0.Coords, EltTy.bits .f32 = 32 ∨ (Rect.block (s := S16x2048x1024) S1x2048x1024.size (cc0_transform_7 i) (hinb0_7 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev spec0_0 : Pipeline.WinSpec sig grid0.rank :=
  Pipeline.WinSpec.ofSpec (Memref.whole main_arg0) S1x2048x1024.size reads0_0 false false 2 stage0_0 sem0_0 nbuf0_0 hstage0_0

abbrev spec0_1 : Pipeline.WinSpec sig grid0.rank :=
  Pipeline.WinSpec.ofSpec (Memref.whole main_arg2) S1x1024x128.size reads0_1 false false 2 stage0_1 sem0_1 nbuf0_1 hstage0_1

abbrev spec0_2 : Pipeline.WinSpec sig grid0.rank :=
  Pipeline.WinSpec.ofSpec (Memref.whole main_arg3) S8x128.size reads0_2 false true 1 stage0_2 sem0_2 nbuf0_2 hstage0_2

abbrev spec0_3 : Pipeline.WinSpec sig grid0.rank :=
  Pipeline.WinSpec.ofSpec (Memref.whole main_arg4) S1x128x1024.size reads0_3 false false 2 stage0_3 sem0_3 nbuf0_3 hstage0_3

abbrev spec0_4 : Pipeline.WinSpec sig grid0.rank :=
  Pipeline.WinSpec.ofSpec (Memref.whole main_arg5) S8x1024.size reads0_4 false true 1 stage0_4 sem0_4 nbuf0_4 hstage0_4

abbrev spec0_5 : Pipeline.WinSpec sig grid0.rank :=
  Pipeline.WinSpec.ofSpec (Memref.whole main_arg6) S8x1024.size reads0_5 false true 1 stage0_5 sem0_5 nbuf0_5 hstage0_5

abbrev spec0_6 : Pipeline.WinSpec sig grid0.rank :=
  Pipeline.WinSpec.ofSpec (Memref.whole main_arg7) S8x1024.size reads0_6 false true 1 stage0_6 sem0_6 nbuf0_6 hstage0_6

abbrev spec0_7 : Pipeline.WinSpec sig grid0.rank :=
  Pipeline.WinSpec.ofSpec (Memref.whole main_v1) S1x2048x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 k0_off1_inb numel1_S1 pf | 2 => cc0_transform_2 | 3 => cc0_transform_3 k0_off1_inb numel1_S1 pf | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | 3 => hreads0_3 pf | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x128.size a ≤ S8x1024x128.size a), EltTy.bits .f32 = 32 ∨ (Rect.block (s := S8x1024x128) S1x1024x128.size (cc0_transform_1 k0_off1_inb numel1_S1 pf i) h).WholeWords (EltTy.packing .f32)) ∧
  (∀ i : grid0.Coords, ∃ h : (∀ a, (cc0_transform_3 k0_off1_inb numel1_S1 pf i a + 1) * S1x128x1024.size a ≤ S8x128x1024.size a), EltTy.bits .f32 = 32 ∨ (Rect.block (s := S8x128x1024) S1x128x1024.size (cc0_transform_3 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => hinb0_2 | 3 => fun i a => (hok.2 i).elim fun h _ => h a | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => hwx0_2 | 3 => fun i => (hok.2 i).elim fun _ h => h | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S16x2048x1024 : Shape := ⟨3, ![16, 2048, 1024]⟩
abbrev S16 : Shape := ⟨1, ![16]⟩
abbrev S8x1024x128 : Shape := ⟨3, ![8, 1024, 128]⟩
abbrev S8x128 : Shape := ⟨2, ![8, 128]⟩
abbrev S8x128x1024 : Shape := ⟨3, ![8, 128, 1024]⟩
abbrev S8x1024 : Shape := ⟨2, ![8, 1024]⟩
abbrev S_ : Shape := ⟨0, ![]⟩
abbrev S16x1 : Shape := ⟨2, ![16, 1]⟩
abbrev S16x1024x128 : Shape := ⟨3, ![16, 1024, 128]⟩
abbrev S16x128 : Shape := ⟨2, ![16, 128]⟩
abbrev S16x1x128 : Shape := ⟨3, ![16, 1, 128]⟩
abbrev S16x128x1024 : Shape := ⟨3, ![16, 128, 1024]⟩
abbrev S16x1024 : Shape := ⟨2, ![16, 1024]⟩
abbrev S16x1x1024 : Shape := ⟨3, ![16, 1, 1024]⟩
abbrev S16x2048x128 : Shape := ⟨3, ![16, 2048, 128]⟩
abbrev S16x2048 : Shape := ⟨2, ![16, 2048]⟩
abbrev S16x2048x1 : Shape := ⟨3, ![16, 2048, 1]⟩

abbrev nBuf : Space → Nat
  | .hbm => 103
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16, .i32⟩
  | .hbm, ⟨2, _⟩ => ⟨S8x1024x128, .f32⟩
  | .hbm, ⟨3, _⟩ => ⟨S8x128, .f32⟩
  | .hbm, ⟨4, _⟩ => ⟨S8x128x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .i32⟩
  | .hbm, ⟨9, _⟩ => ⟨S16, .i32⟩
  | .hbm, ⟨10, _⟩ => ⟨S16, .i1⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S16, .i32⟩
  | .hbm, ⟨15, _⟩ => ⟨S16x1, .i32⟩
  | .hbm, ⟨16, _⟩ => ⟨S16x1024x128, .f32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S16x1, .i32⟩
  | .hbm, ⟨25, _⟩ => ⟨S16x128, .f32⟩
  | .hbm, ⟨26, _⟩ => ⟨S16x1x128, .f32⟩
  | .hbm, ⟨27, _⟩ => ⟨S_, .i32⟩
  | .hbm, ⟨28, _⟩ => ⟨S16, .i32⟩
  | .hbm, ⟨29, _⟩ => ⟨S16, .i1⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S16x128x1024, .f32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S_, .i32⟩
  | .hbm, ⟨40, _⟩ => ⟨S16, .i32⟩
  | .hbm, ⟨41, _⟩ => ⟨S16, .i32⟩
  | .hbm, ⟨42, _⟩ => ⟨S16, .i32⟩
  | .hbm, ⟨43, _⟩ => ⟨S16x1, .i32⟩
  | .hbm, ⟨44, _⟩ => ⟨S16x1024, .f32⟩
  | .hbm, ⟨45, _⟩ => ⟨S16x1x1024, .f32⟩
  | .hbm, ⟨46, _⟩ => ⟨S_, .i32⟩
  | .hbm, ⟨47, _⟩ => ⟨S16, .i32⟩
  | .hbm, ⟨48, _⟩ => ⟨S16, .i1⟩
  | .hbm, ⟨49, _⟩ => ⟨S_, .i32⟩
  | .hbm, ⟨50, _⟩ => ⟨S16, .i32⟩
  | .hbm, ⟨51, _⟩ => ⟨S16, .i32⟩
  | .hbm, ⟨52, _⟩ => ⟨S16, .i32⟩
  | .hbm, ⟨53, _⟩ => ⟨S16x1, .i32⟩
  | .hbm, ⟨54, _⟩ => ⟨S16x1024, .f32⟩
  | .hbm, ⟨55, _⟩ => ⟨S16x1x1024, .f32⟩
  | .hbm, ⟨56, _⟩ => ⟨S_, .i32⟩
  | .hbm, ⟨57, _⟩ => ⟨S16, .i32⟩
  | .hbm, ⟨58, _⟩ => ⟨S16, .i1⟩
  | .hbm, ⟨59, _⟩ => ⟨S_, .i32⟩
  | .hbm, ⟨60, _⟩ => ⟨S16, .i32⟩
  | .hbm, ⟨61, _⟩ => ⟨S16, .i32⟩
  | .hbm, ⟨62, _⟩ => ⟨S16, .i32⟩
  | .hbm, ⟨63, _⟩ => ⟨S16x1, .i32⟩
  | .hbm, ⟨64, _⟩ => ⟨S16x1024, .f32⟩
  | .hbm, ⟨65, _⟩ => ⟨S16x1x1024, .f32⟩
  | .hbm, ⟨66, _⟩ => ⟨S16x2048x128, .f32⟩
  | .hbm, ⟨67, _⟩ => ⟨S16x2048x128, .f32⟩
  | .hbm, ⟨68, _⟩ => ⟨S16x2048x128, .f32⟩
  | .hbm, ⟨69, _⟩ => ⟨S_, .f32⟩
  | .hbm, ⟨70, _⟩ => ⟨S16x2048x128, .f32⟩
  | .hbm, ⟨71, _⟩ => ⟨S16x2048x128, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x1024, .f32⟩
  | .hbm, ⟨76, _⟩ => ⟨S_, .f32⟩
  | .hbm, ⟨77, _⟩ => ⟨S16x2048, .f32⟩
  | .hbm, ⟨78, _⟩ => ⟨S16x2048x1, .f32⟩
  | .hbm, ⟨79, _⟩ => ⟨S_, .f32⟩
  | .hbm, ⟨80, _⟩ => ⟨S16x2048x1, .f32⟩
  | .hbm, ⟨81, _⟩ => ⟨S16x2048x1, .f32⟩
  | .hbm, ⟨82, _⟩ => ⟨S16x2048x1024, .f32⟩
  | .hbm, ⟨83, _⟩ => ⟨S16x2048x1024, .f32⟩
  | .hbm, ⟨84, _⟩ => ⟨S16x2048x1024, .f32⟩
  | .hbm, ⟨85, _⟩ => ⟨S_, .f32⟩
  | .hbm, ⟨86, _⟩ => ⟨S16x2048, .f32⟩
  | .hbm, ⟨87, _⟩ => ⟨S16x2048x1, .f32⟩
  | .hbm, ⟨88, _⟩ => ⟨S_, .f32⟩
  | .hbm, ⟨89, _⟩ => ⟨S16x2048x1, .f32⟩
  | .hbm, ⟨90, _⟩ => ⟨S16x2048x1, .f32⟩
  | .hbm, ⟨91, _⟩ => ⟨S16x2048x1024, .f32⟩
  | .hbm, ⟨92, _⟩ => ⟨S16x2048x1024, .f32⟩
  | .hbm, ⟨93, _⟩ => ⟨S_, .f32⟩
  | .hbm, ⟨94, _⟩ => ⟨S16x2048x1, .f32⟩
  | .hbm, ⟨95, _⟩ => ⟨S16x2048x1, .f32⟩
  | .hbm, ⟨96, _⟩ => ⟨S16x2048x1, .f32⟩
  | .hbm, ⟨97, _⟩ => ⟨S16x2048x1024, .f32⟩
  | .hbm, ⟨98, _⟩ => ⟨S16x2048x1024, .f32⟩
  | .hbm, ⟨99, _⟩ => ⟨S16x2048x1024, .f32⟩
  | .hbm, ⟨100, _⟩ => ⟨S16x2048x1024, .f32⟩
  | .hbm, ⟨101, _⟩ => ⟨S16x2048x1024, .f32⟩
  | .hbm, ⟨102, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_v22 : Ref sig .tc := ⟨.hbm, 37, rfl⟩
abbrev main_v23 : Ref sig .tc := ⟨.hbm, 38, rfl⟩
abbrev main_c_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_9 : Ref sig .tc := ⟨.hbm, 56, rfl⟩
abbrev main_v38 : Ref sig .tc := ⟨.hbm, 57, rfl⟩
abbrev main_v39 : Ref sig .tc := ⟨.hbm, 58, rfl⟩
abbrev main_c_10 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call0_cst : Ref sig .tc := ⟨.hbm, 69, rfl⟩
abbrev main_call0_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S16x128_S16x1x128_0_2 : S16x128.BroadcastsInDim S16x1x128 (![0, 2] : Fin 2 → Fin S16x1x128.rank)
  bcast_S16x1024_S16x1x1024_0_2 : S16x1024.BroadcastsInDim S16x1x1024 (![0, 2] : Fin 2 → Fin S16x1x1024.rank)
  bcast_S16x1x128_S16x2048x128_0_1_2 : S16x1x128.BroadcastsInDim S16x2048x128 (![0, 1, 2] : Fin 3 → Fin S16x2048x128.rank)
  bcast_S_S16x2048x128 : S_.BroadcastsInDim S16x2048x128 (![] : Fin 0 → Fin S16x2048x128.rank)
  bcast_S16x1x1024_S16x2048x1024_0_1_2 : S16x1x1024.BroadcastsInDim S16x2048x1024 (![0, 1, 2] : Fin 3 → Fin S16x2048x1024.rank)
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  gather_S8x1024x128_S16x1_S16x1024x128_12_0_n_n_0_1_11024128_wf : GatherDims.WF S8x1024x128 S16x1 S16x1024x128 [1, 2] [0] [] [0] [] 1 ![1, 1024, 128]
  gather_S8x128_S16x1_S16x128_1_0_n_n_0_1_1128_wf : GatherDims.WF S8x128 S16x1 S16x128 [1] [0] [] [0] [] 1 ![1, 128]
  gather_S8x128x1024_S16x1_S16x128x1024_12_0_n_n_0_1_11281024_wf : GatherDims.WF S8x128x1024 S16x1 S16x128x1024 [1, 2] [0] [] [0] [] 1 ![1, 128, 1024]
  gather_S8x1024_S16x1_S16x1024_1_0_n_n_0_1_11024_wf : GatherDims.WF S8x1024 S16x1 S16x1024 [1] [0] [] [0] [] 1 ![1, 1024]
  dot_S16x2048x1024_S16x1024x128_S16x2048x128_2_1_1_2_0_0_wf : DotDims.WF S16x2048x1024 S16x1024x128 S16x2048x128 [2] [1] [1] [2] [0] [0]
  dot_S16x2048x128_S16x128x1024_S16x2048x1024_2_1_1_2_0_0_wf : DotDims.WF S16x2048x128 S16x128x1024 S16x2048x1024 [2] [1] [1] [2] [0] [0]

variable [Facts₀]

def gather_S8x1024x128_S16x1_S16x1024x128_12_0_n_n_0_1_11024128 : GatherDims S8x1024x128 S16x1 S16x1024x128 where
  offsetDims := [1, 2]
  collapsedSliceDims := [0]
  operandBatchingDims := []
  startIndicesBatchingDims := []
  startIndexMap := [0]
  indexVectorDim := 1
  sliceSizes := ![1, 1024, 128]
  wf := gather_S8x1024x128_S16x1_S16x1024x128_12_0_n_n_0_1_11024128_wf
def gather_S8x128_S16x1_S16x128_1_0_n_n_0_1_1128 : GatherDims S8x128 S16x1 S16x128 where
  offsetDims := [1]
  collapsedSliceDims := [0]
  operandBatchingDims := []
  startIndicesBatchingDims := []
  startIndexMap := [0]
  indexVectorDim := 1
  sliceSizes := ![1, 128]
  wf := gather_S8x128_S16x1_S16x128_1_0_n_n_0_1_1128_wf
def gather_S8x128x1024_S16x1_S16x128x1024_12_0_n_n_0_1_11281024 : GatherDims S8x128x1024 S16x1 S16x128x1024 where
  offsetDims := [1, 2]
  collapsedSliceDims := [0]
  operandBatchingDims := []
  startIndicesBatchingDims := []
  startIndexMap := [0]
  indexVectorDim := 1
  sliceSizes := ![1, 128, 1024]
  wf := gather_S8x128x1024_S16x1_S16x128x1024_12_0_n_n_0_1_11281024_wf
def gather_S8x1024_S16x1_S16x1024_1_0_n_n_0_1_11024 : GatherDims S8x1024 S16x1 S16x1024 where
  offsetDims := [1]
  collapsedSliceDims := [0]
  operandBatchingDims := []
  startIndicesBatchingDims := []
  startIndexMap := [0]
  indexVectorDim := 1
  sliceSizes := ![1, 1024]
  wf := gather_S8x1024_S16x1_S16x1024_1_0_n_n_0_1_11024_wf
def dot_S16x2048x1024_S16x1024x128_S16x2048x128_2_1_1_2_0_0 : DotDims S16x2048x1024 S16x1024x128 S16x2048x128 where
  lhsContracting := [2]
  rhsContracting := [1]
  lhsNonContracting := [1]
  rhsNonContracting := [2]
  lhsBatch := [0]
  rhsBatch := [0]
  wf := dot_S16x2048x1024_S16x1024x128_S16x2048x128_2_1_1_2_0_0_wf
def dot_S16x2048x128_S16x128x1024_S16x2048x1024_2_1_1_2_0_0 : DotDims S16x2048x128 S16x128x1024 S16x2048x1024 where
  lhsContracting := [2]
  rhsContracting := [1]
  lhsNonContracting := [1]
  rhsNonContracting := [2]
  lhsBatch := [0]
  rhsBatch := [0]
  wf := dot_S16x2048x128_S16x128x1024_S16x2048x1024_2_1_1_2_0_0_wf

class Facts : Prop extends Facts₀ where

variable [Facts]
-- ==== Proof.Spec.lean ====
/-
  The adapter layer as one function of its arguments, on the extended reals.

  For one batch row: with X the row's [2048 × 1024] activations, Wd, bd, Wu, bu the down and up projections and
  γ, β the normalisation's scale and shift,
      z s k = max (∑ j, X s j · Wd j k + bd k) 0
      y s h = (X s h + ∑ k, z s k · Wu k h) + bu h
      μ s   = (∑ h, y s h) / 1024
      σ² s  = (∑ h, (y s h − μ s)²) / 1024
      out s h = (y s h − μ s) · rsqrt (σ² s + ε) · γ h + β h .
  The whole result applies this to batch row b with the parameters of profile r b.  The constants stay as the
  printed words: 1024 is 0x44800000 and ε is 0x3727C5AC in both programs, so neither is ever evaluated.
-/
import Idealize.ShloMosaic.PureOps.Ideal
import Idealize.ShloMosaic.Lib.ValueIdx

noncomputable section

namespace Cert.Spec

open Idealize.ShloMosaic Idealize.ShloMosaic.ValueIdx

/-- The printed words of the three float constants, read at the ideal values. -/
abbrev zeroW : EReal := Ideal.ofBits .f32 0x00000000#32
abbrev widthW : EReal := Ideal.ofBits .f32 0x44800000#32
abbrev epsW : EReal := Ideal.ofBits .f32 0x3727C5AC#32

section Row

variable (X : Fin 2048 → Fin 1024 → EReal) (Wd : Fin 1024 → Fin 128 → EReal) (bd : Fin 128 → EReal)
  (Wu : Fin 128 → Fin 1024 → EReal) (bu γ β : Fin 1024 → EReal)

/-- The bottleneck activations: down projection, bias, ReLU. -/
def hid (s : Fin 2048) (k : Fin 128) : EReal := max ((∑ j : Fin 1024, X s j * Wd j k) + bd k) zeroW

/-- Up projection added to the input, then the bias. -/
def res (s : Fin 2048) (h : Fin 1024) : EReal := (X s h + ∑ k : Fin 128, hid X Wd bd s k * Wu k h) + bu h

/-- The mean of a row over the hidden axis. -/
def mean (s : Fin 2048) : EReal := Ideal.div (∑ h : Fin 1024, res X Wd bd Wu bu s h) widthW

/-- The centred row. -/
def cen (s : Fin 2048) (h : Fin 1024) : EReal := res X Wd bd Wu bu s h - mean X Wd bd Wu bu s

/-- The variance of a row over the hidden axis. -/
def var (s : Fin 2048) : EReal :=
  Ideal.div (∑ h : Fin 1024, cen X Wd bd Wu bu s h * cen X Wd bd Wu bu s h) widthW

/-- One batch row of the result: the normalised row scaled and shifted. -/
def outRow (s : Fin 2048) (h : Fin 1024) : EReal :=
  cen X Wd bd Wu bu s h * Ideal.rsqrt (var X Wd bd Wu bu s + epsW) * γ h + β h

end Row

/-- The profile a batch row uses: its id read as a natural number, capped at the last profile (an id in range is
    its own value). -/
def rowOf (ids : IVec ⟨1, ![16]⟩ 32) (b : Fin 16) : Fin 8 := ⟨min (ids (ix1 b)).toNat 7, by omega⟩

theorem rowOf_val_of_lt (ids : IVec ⟨1, ![16]⟩ 32) (b : Fin 16) (h : (ids (ix1 b)).toNat < 8) :
    (rowOf ids b).val = (ids (ix1 b)).toNat := by
  show min _ 7 = _
  omega

/-- The whole result: batch row b through the adapter of profile `rowOf ids b`. -/
def G (x : (⟨3, ![16, 2048, 1024]⟩ : Shape).Idx → EReal) (ids : IVec ⟨1, ![16]⟩ 32)
    (wd : (⟨3, ![8, 1024, 128]⟩ : Shape).Idx → EReal) (bd : (⟨2, ![8, 128]⟩ : Shape).Idx → EReal)
    (wu : (⟨3, ![8, 128, 1024]⟩ : Shape).Idx → EReal) (bu γ β : (⟨2, ![8, 1024]⟩ : Shape).Idx → EReal) :
    (⟨3, ![16, 2048, 1024]⟩ : Shape).Idx → EReal := fun i =>
  outRow (fun s j => x (ix3 (i 0) s j)) (fun j k => wd (ix3 (rowOf ids (i 0)) j k)) (fun k => bd (ix2 (rowOf ids (i 0)) k))
    (fun k h => wu (ix3 (rowOf ids (i 0)) k h)) (fun h => bu (ix2 (rowOf ids (i 0)) h))
    (fun h => γ (ix2 (rowOf ids (i 0)) h)) (fun h => β (ix2 (rowOf ids (i 0)) h)) (i 1) (i 2)

end Cert.Spec

end
-- ==== Proof.PreDecode.lean ====
/-
  The precondition read at the profile ids.

  The precondition is a conjunction: every float input finite, every profile id at least 0, every profile id below 8,
  each "every" a reduction of a comparison by "and". Only the last two conjuncts are opened here: a 32-bit word that
  is at least 0 and below 8 as a signed number is below 8 as a natural number.
-/
import proofs.«417159_j6408091205681_2_alg».proof.Pre_finite_inputs
import Idealize.ShloMosaic.Lib.ReduceAll
import Idealize.ShloMosaic.Lib.ValueIdx

noncomputable section

namespace Cert.PreDecode

open Idealize.ShloMosaic Idealize.ShloMosaic.ValueIdx Cert.Pre_finite_inputs

variable {F : FTy → Type} [FloatOps F] [Cert.Pre_finite_inputs.Facts]

/-- A conjunction of two one-bit words is 1 only when both are. -/
theorem and_one : ∀ a b : BitVec 1, IntOp.andi a b = 1#1 → a = 1#1 ∧ b = 1#1 := by decide

/-- A one-bit word made from a boolean is 1 only when the boolean is true. -/
theorem ofBool_one (c : Bool) (h : BitVec.ofBool c = 1#1) : c = true := by
  cases c
  · exact absurd h (by decide)
  · rfl

/-- A 32-bit word that is at least 0 and less than 8 as a signed number is below 8 as a natural number:
    a word with its top bit set reads negative, so the first test excludes it, and below 2³¹ the two readings agree. -/
theorem toNat_lt_eight (w : BitVec 32) (h0 : IntOp.cmpi .sge w 0#32 = 1#1) (h8 : IntOp.cmpi .slt w 8#32 = 1#1) :
    w.toNat < 8 := by
  have g0 : (0#32 : BitVec 32).sle w = true := ofBool_one _ h0
  have g8 : w.slt 8#32 = true := ofBool_one _ h8
  simp only [BitVec.sle, BitVec.slt, decide_eq_true_eq] at g0 g8
  have z : (0#32 : BitVec 32).toInt = 0 := by decide
  have e : (8#32 : BitVec 32).toInt = 8 := by decide
  rw [z] at g0
  rw [e] at g8
  have c := BitVec.toInt_eq_toNat_cond w
  have hw := w.isLt
  split at c <;> omega

/-- The scalar shape has one index. -/
instance : Subsingleton S_.Idx := ⟨fun _ _ => funext fun d => d.elim0⟩

/-- Where the precondition holds, every profile id, read as a natural number, is below 8. -/
theorem ids_lt (a0 : FVec F S16x2048x1024 .f32) (ids : IVec S16 32) (a2 : FVec F S8x1024x128 .f32) (a3 : FVec F S8x128 .f32)
    (a4 : FVec F S8x128x1024 .f32) (a5 a6 a7 : FVec F S8x1024 .f32)
    (h : Cert.Pre_finite_inputs.fn (F := F) a0 ids a2 a3 a4 a5 a6 a7 = fun _ => 1#1) (b : Fin 16) :
    (ids (ix1 b)).toNat < 8 := by
  have e := congrFun h ix0
  -- the predicate is a chain of conjunctions; its last two conjuncts are the two tests on the ids
  unfold Cert.Pre_finite_inputs.fn Cert.Pre_finite_inputs.fn_part1 Cert.Pre_finite_inputs.fn_part2 at e
  dsimp only at e
  obtain ⟨e1, hlt⟩ := and_one _ _ e
  obtain ⟨-, hge⟩ := and_one _ _ e1
  -- each test is an and-reduction over all sixteen ids that came out 1: it holds at id b
  have g := Host.reduce_andi_all _ _ _ _ _ hge (ix1 b)
  have l := Host.reduce_andi_all _ _ _ _ _ hlt (ix1 b)
  exact toNat_lt_eight _ g l

end Cert.PreDecode

end
-- ==== Proof.KTables.lean ====
/-
  The table of profiles the kernel prefetches, for the word-level program.

  Before the kernel region the program clips the profile ids into [0, 7]: the table is the smaller of 7 and the larger
  of 0 and each id. An id already in range is unchanged, so with ids below 8 the table is the ids and every entry is
  below 8. That is what the region needs of it: the one-profile blocks of the two weight arrays that the index maps
  name lie inside the eight-profile arrays, and the row the body reads of each small table is one of its eight rows.
-/
import proofs.«417159_j6408091205681_2_alg».proof.Proof.Gen.Kernel.Frame
import Idealize.ShloMosaic.Lib.ValueIdx
import Idealize.ShloMosaic.Lib.StableHlo.Run

set_option maxRecDepth 16384

noncomputable section

namespace Cert.Kernel.Tables

open Cert.Kernel Cert.Kernel.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The profile ids as the launch memory of device 0 holds them. -/
abbrev ids0 : IVec S16 32 := m (((0 : Dev nD) : Thread nD τ).loc main_arg1)

/-! ## The clip of a word already in range -/

/-- A 32-bit word below 2³¹ reads the same as a signed and as a natural number. -/
theorem toInt_of_small (w : BitVec 32) (hw : w.toNat < 2 ^ 31) : w.toInt = (w.toNat : Int) := by
  have c := BitVec.toInt_eq_toNat_cond w
  split at c <;> omega

/-- The larger of 0 and a word below 8 is the word; the smaller of 7 and it is again the word. -/
theorem clip_of_lt (w : BitVec 32) (hw : w.toNat < 8) : IntOp.minsi 7#32 (IntOp.maxsi 0#32 w) = w := by
  have hi : w.toInt = (w.toNat : Int) := toInt_of_small w (by omega)
  have h0 : (0#32 : BitVec 32).toInt = 0 := by decide
  have h7 : (7#32 : BitVec 32).toInt = 7 := by decide
  have hmax : IntOp.maxsi 0#32 w = w := by
    unfold IntOp.maxsi
    split
    · rename_i hc
      simp only [BitVec.slt, decide_eq_true_eq, hi, h0] at hc
      apply BitVec.eq_of_toNat_eq
      show 0 = w.toNat
      omega
    · rfl
  rw [hmax]
  unfold IntOp.minsi
  split
  · rename_i hc
    simp only [BitVec.slt, decide_eq_true_eq, hi, h7] at hc
    apply BitVec.eq_of_toNat_eq
    show 7 = w.toNat
    omega
  · rfl

/-! ## The table as the host operations before the region leave it -/

/-- The prefetched table is the ids clipped: the smaller of 7 and the larger of 0 and each id. -/
theorem tbl_val : (tbl m 0 : S16.Idx → BitVec 32)
    = minsi (broadcastInDim S16 ![] Facts₀.bcast_S_S16 (constantI S_ 32 7#32))
        (maxsi (broadcastInDim S16 ![] Facts₀.bcast_S_S16 (constantI S_ 32 0#32)) (ids0 m)) := by
  unfold tbl
  show V m 0 main_v0 = _
  dsimp only [V]
  simp only [hostOps0, hostOps0_1, List.flatten_cons, List.flatten_nil, List.append_nil, List.cons_append, List.nil_append]
  after_results
  rfl

/-- The prefetched table is the ids clipped into [0, 7]: ids already in range are unchanged. -/
theorem tbl_eq_ids (hlt : ∀ b : Fin 16, (ids0 m (ix1 b)).toNat < 8) (b : Fin 16) : tbl m 0 (ix1 b) = ids0 m (ix1 b) := by
  have e := congrFun (tbl_val m) (ix1 b)
  exact e.trans (clip_of_lt _ (hlt b))

/-! ## Reading one word of a sixteen-entry table -/

/-- The one index of a one-word rectangle at offset t of a sixteen-entry table is index t. -/
theorem unit_idx (t : Fin 16) (off : Fin 1 → Nat) (hoff : off 0 = t.val) (inb : ∀ a, off a + S1.size a ≤ S16.size a) (h1 : 0 < S1.numel) :
    (Rect.unit (s := S16) off S1.size inb).toLoadRect.idx (Shape.Idx.first h1) = ix1 t := by
  funext a
  match a with
  | ⟨0, _⟩ =>
    apply Fin.ext
    show off 0 + 1 * 0 = t.val
    omega

/-- Through the whole table, at any contents pf of it, the word at offset t is entry t. -/
theorem word_of (pf : pre0.Contents (Elt F)) (t : Fin 16) (off : Fin 1 → Nat) (hoff : off 0 = t.val) (inb : ∀ a, off a + S1.size a ≤ S16.size a) (h1 : 0 < S1.numel) :
    tbM0_0.view.readAt (Elt F) (Rect.unit (s := S16) off S1.size inb).toLoadRect (pf 0) (Shape.Idx.first h1) = pf 0 (ix1 t) :=
  congrArg (pf 0) (unit_idx t off hoff inb h1)

/-- The word the body and the index maps read at offset t of the table is entry t. -/
theorem word_at (t : Fin 16) (off : Fin 1 → Nat) (hoff : off 0 = t.val) (inb : ∀ a, off a + S1.size a ≤ S16.size a) (h1 : 0 < S1.numel) :
    tbM0_0.view.readAt (Elt F) (Rect.unit (s := S16) off S1.size inb).toLoadRect (tbl m 0) (Shape.Idx.first h1) = tbl m 0 (ix1 t) :=
  word_of (tbl m) t off hoff inb h1

/-! ## The blocks the index maps name, at any contents of the table -/

/-- Every entry below 8, at every index of the table. -/
theorem all_lt (pf : pre0.Contents (Elt F)) (hw : ∀ b : Fin 16, (pf 0 (ix1 b)).toNat < 8) (x : S16.Idx) : (pf 0 x).toNat < 8 := by
  obtain ⟨b, rfl⟩ : ∃ b : Fin 16, x = ix1 b := ⟨x 0, eq_ix1 x⟩
  exact hw b

/-- With every entry below 8, the block of one profile that each of the two table-reading index maps names lies inside its
    eight-profile array, at every grid point. -/
theorem ok_of_words (pf : pre0.Contents (Elt F)) (hw : ∀ b : Fin 16, (pf 0 (ix1 b)).toNat < 8) : ok0 (F := F) pf := by
  refine ⟨fun i => ?_, fun i => ?_⟩
  · obtain ⟨w, hw8, e⟩ : ∃ w : BitVec 32, w.toNat < 8 ∧ cc0_transform_1 Facts₀.k0_off1_inb Facts₀.numel1_S1 pf i = ![w.toNat, 0, 0] :=
      ⟨_, all_lt pf hw _, rfl⟩
    refine ⟨fun a => ?_, Or.inl rfl⟩
    rw [e]
    match a with
    | ⟨0, _⟩ => show (w.toNat + 1) * 1 ≤ 8; omega
    | ⟨1, _⟩ => show (0 + 1) * 1024 ≤ 1024; omega
    | ⟨2, _⟩ => show (0 + 1) * 128 ≤ 128; omega
  · obtain ⟨w, hw8, e⟩ : ∃ w : BitVec 32, w.toNat < 8 ∧ cc0_transform_3 Facts₀.k0_off1_inb Facts₀.numel1_S1 pf i = ![w.toNat, 0, 0] :=
      ⟨_, all_lt pf hw _, rfl⟩
    refine ⟨fun a => ?_, Or.inl rfl⟩
    rw [e]
    match a with
    | ⟨0, _⟩ => show (w.toNat + 1) * 1 ≤ 8; omega
    | ⟨1, _⟩ => show (0 + 1) * 128 ≤ 128; omega
    | ⟨2, _⟩ => show (0 + 1) * 1024 ≤ 1024; omega

/-- With the ids below 8, so is every entry of the table. -/
theorem tbl_lt (hlt : ∀ b : Fin 16, (ids0 m (ix1 b)).toNat < 8) (b : Fin 16) : (tbl m 0 (ix1 b)).toNat < 8 := by
  rw [tbl_eq_ids m hlt b]; exact hlt b

theorem ok_of_lt (hlt : ∀ b : Fin 16, (ids0 m (ix1 b)).toNat < 8) : Ok m :=
  ok_of_words (tbl m) (tbl_lt m hlt)

/-! ## The side condition the body assumes of the word it loads -/

/-- A word below 8 names a row of the eight-row arrays the body reads one row of. -/
theorem chk_of_lt (w : BitVec 32) (hw : w.toNat < 8) : k0_chk1 w := by
  have e : (Scalar.indexCast w).toNat = w.toNat := rfl
  refine ⟨fun a => ?_, fun a => ?_⟩
  · match a with
    | ⟨0, _⟩ => show (Scalar.indexCast w).toNat + 1 ≤ 8; omega
    | ⟨1, _⟩ => show 0 + 128 ≤ 128; omega
  · match a with
    | ⟨0, _⟩ => show (Scalar.indexCast w).toNat + 1 ≤ 8; omega
    | ⟨1, _⟩ => show 0 + 1024 ≤ 1024; omega

/-- The offset the body loads its word at, at grid point t, is the point's coordinate. -/
theorem off_at (i : grid0.Coords) : k0_off1 i 0 = (i 0).val := by
  have hi : (i 0).val < 16 := (i 0).isLt
  show (BitVec.ofNat 32 (i 0).val).toNat = (i 0).val
  rw [BitVec.toNat_ofNat]
  exact Nat.mod_eq_of_lt (by omega)

theorem hyps_of_lt (hlt : ∀ b : Fin 16, (ids0 m (ix1 b)).toNat < 8) (hO : Ok m) : Hyps m hO := by
  intro c t
  rw [word_at m (grid0.coords t 0) _ (off_at (grid0.coords t))]
  exact chk_of_lt _ (tbl_lt m hlt (grid0.coords t 0))

end Cert.Kernel.Tables

end
-- ==== Proof.KITables.lean ====
/-
  The table of profiles the kernel prefetches, for the idealized program.

  Before the kernel region the program clips the profile ids into [0, 7]: the table is the smaller of 7 and the larger
  of 0 and each id. An id already in range is unchanged, so with ids below 8 the table is the ids and every entry is
  below 8. That is what the region needs of it: the one-profile blocks of the two weight arrays that the index maps
  name lie inside the eight-profile arrays, and the row the body reads of each small table is one of its eight rows.
-/
import proofs.«417159_j6408091205681_2_alg».proof.Proof.Gen.KernelIdeal.Frame
import Idealize.ShloMosaic.Lib.ValueIdx
import Idealize.ShloMosaic.Lib.StableHlo.Run

set_option maxRecDepth 16384

noncomputable section

namespace Cert.KernelIdeal.Tables

open Cert.KernelIdeal Cert.KernelIdeal.Gen
open Idealize.ShloMosaic Idealize.ShloMosaic.TcCoe Idealize.SL.Sem Idealize.ShloMosaic.ValueIdx

variable {F : FTy → Type} [FloatOps F] (m : (ℓ : Loc nD τ sig) → Buf (Elt F) ℓ)

/-- The profile ids as the launch memory of device 0 holds them. -/
abbrev ids0 : IVec S16 32 := m (((0 : Dev nD) : Thread nD τ).loc main_arg1)

/-! ## The clip of a word already in range -/

/-- A 32-bit word below 2³¹ reads the same as a signed and as a natural number. -/
theorem toInt_of_small (w : BitVec 32) (hw : w.toNat < 2 ^ 31) : w.toInt = (w.toNat : Int) := by
  have c := BitVec.toInt_eq_toNat_cond w
  split at c <;> omega

/-- The larger of 0 and a word below 8 is the word; the smaller of 7 and it is again the word. -/
theorem clip_of_lt (w : BitVec 32) (hw : w.toNat < 8) : IntOp.minsi 7#32 (IntOp.maxsi 0#32 w) = w := by
  have hi : w.toInt = (w.toNat : Int) := toInt_of_small w (by omega)
  have h0 : (0#32 : BitVec 32).toInt = 0 := by decide
  have h7 : (7#32 : BitVec 32).toInt = 7 := by decide
  have hmax : IntOp.maxsi 0#32 w = w := by
    unfold IntOp.maxsi
    split
    · rename_i hc
      simp only [BitVec.slt, decide_eq_true_eq, hi, h0] at hc
      apply BitVec.eq_of_toNat_eq
      show 0 = w.toNat
      omega
    · rfl
  rw [hmax]
  unfold IntOp.minsi
  split
  · rename_i hc
    simp only [BitVec.slt, decide_eq_true_eq, hi, h7] at hc
    apply BitVec.eq_of_toNat_eq
    show 7 = w.toNat
    omega
  · rfl

/-! ## The table as the host operations before the region leave it -/

/-- The prefetched table is the ids clipped: the smaller of 7 and the larger of 0 and each id. -/
theorem tbl_val : (tbl m 0 : S16.Idx → BitVec 32)
    = minsi (broadcastInDim S16 ![] Facts₀.bcast_S_S16 (constantI S_ 32 7#32))
        (maxsi (broadcastInDim S16 ![] Facts₀.bcast_S_S16 (constantI S_ 32 0#32)) (ids0 m)) := by
  unfold tbl
  show V m 0 main_v0 = _
  dsimp only [V]
  simp only [hostOps0, hostOps0_1, List.flatten_cons, List.flatten_nil, List.append_nil, List.cons_append, List.nil_append]
  after_results
  rfl

/-- The prefetched table is the ids clipped into [0, 7]: ids already in range are unchanged. -/
theorem tbl_eq_ids (hlt : ∀ b : Fin 16, (ids0 m (ix1 b)).toNat < 8) (b : Fin 16) : tbl m 0 (ix1 b) = ids0 m (ix1 b) := by
  have e := congrFun (tbl_val m) (ix1 b)
  exact e.trans (clip_of_lt _ (hlt b))

/-! ## Reading one word of a sixteen-entry table -/

/-- The one index of a one-word rectangle at offset t of a sixteen-entry table is index t. -/
theorem unit_idx (t : Fin 16) (off : Fin 1 → Nat) (hoff : off 0 = t.val) (inb : ∀ a, off a + S1.size a ≤ S16.size a) (h1 : 0 < S1.numel) :
    (Rect.unit (s := S16) off S1.size inb).toLoadRect.idx (Shape.Idx.first h1) = ix1 t := by
  funext a
  match a with
  | ⟨0, _⟩ =>
    apply Fin.ext
    show off 0 + 1 * 0 = t.val
    omega

/-- Through the whole table, at any contents pf of it, the word at offset t is entry t. -/
theorem word_of (pf : pre0.Contents (Elt F)) (t : Fin 16) (off : Fin 1 → Nat) (hoff : off 0 = t.val) (inb : ∀ a, off a + S1.size a ≤ S16.size a) (h1 : 0 < S1.numel) :
    tbM0_0.view.readAt (Elt F) (Rect.unit (s := S16) off S1.size inb).toLoadRect (pf 0) (Shape.Idx.first h1) = pf 0 (ix1 t) :=
  congrArg (pf 0) (unit_idx t off hoff inb h1)

/-- The word the body and the index maps read at offset t of the table is entry t. -/
theorem word_at (t : Fin 16) (off : Fin 1 → Nat) (hoff : off 0 = t.val) (inb : ∀ a, off a + S1.size a ≤ S16.size a) (h1 : 0 < S1.numel) :
    tbM0_0.view.readAt (Elt F) (Rect.unit (s := S16) off S1.size inb).toLoadRect (tbl m 0) (Shape.Idx.first h1) = tbl m 0 (ix1 t) :=
  word_of (tbl m) t off hoff inb h1

/-! ## The blocks the index maps name, at any contents of the table -/

/-- Every entry below 8, at every index of the table. -/
theorem all_lt (pf : pre0.Contents (Elt F)) (hw : ∀ b : Fin 16, (pf 0 (ix1 b)).toNat < 8) (x : S16.Idx) : (pf 0 x).toNat < 8 := by
  obtain ⟨b, rfl⟩ : ∃ b : Fin 16, x = ix1 b := ⟨x 0, eq_ix1 x⟩
  exact hw b

/-- With every entry below 8, the block of one profile that each of the two table-reading index maps names lies inside its
    eight-profile array, at every grid point. -/
theorem ok_of_words (pf : pre0.Contents (Elt F)) (hw : ∀ b : Fin 16, (pf 0 (ix1 b)).toNat < 8) : ok0 (F := F) pf := by
  refine ⟨fun i => ?_, fun i => ?_⟩
  · obtain ⟨w, hw8, e⟩ : ∃ w : BitVec 32, w.toNat < 8 ∧ cc0_transform_1 Facts₀.k0_off1_inb Facts₀.numel1_S1 pf i = ![w.toNat, 0, 0] :=
      ⟨_, all_lt pf hw _, rfl⟩
    refine ⟨fun a => ?_, Or.inl rfl⟩
    rw [e]
    match a with
    | ⟨0, _⟩ => show (w.toNat + 1) * 1 ≤ 8; omega
    | ⟨1, _⟩ => show (0 + 1) * 1024 ≤ 1024; omega
    | ⟨2, _⟩ => show (0 + 1) * 128 ≤ 128; omega
  · obtain ⟨w, hw8, e⟩ : ∃ w : BitVec 32, w.toNat < 8 ∧ cc0_transform_3 Facts₀.k0_off1_inb Facts₀.numel1_S1 pf i = ![w.toNat, 0, 0] :=
      ⟨_, all_lt pf hw _, rfl⟩
    refine ⟨fun a => ?_, Or.inl rfl⟩
    rw [e]
    match a with
    | ⟨0, _⟩ => show (w.toNat + 1) * 1 ≤ 8; omega
    | ⟨1, _⟩ => show (0 + 1) * 128 ≤ 128; omega
    | ⟨2, _⟩ => show (0 + 1) * 1024 ≤ 1024; omega

/-- With the ids below 8, so is every entry of the table. -/
theorem tbl_lt (hlt : ∀ b : Fin 16, (ids0 m (ix1 b)).toNat < 8) (b : Fin 16) : (tbl m 0 (ix1 b)).toNat < 8 := by
  rw [tbl_eq_ids m hlt b]; exact hlt b

theorem ok_of_lt (hlt : ∀ b : Fin 16, (ids0 m (ix1 b)).toNat < 8) : Ok m :=
  ok_of_words (tbl m) (tbl_lt m hlt)

/-! ## The side condition the body assumes of the word it loads -/

/-- A word below 8 names a row of the eight-row arrays the body reads one row of. -/
theorem chk_of_lt (w : BitVec 32) (hw : w.toNat < 8) : k0_chk1 w := by
  have e : (Scalar.indexCast w).toNat = w.toNat := rfl
  refine ⟨fun a => ?_, fun a => ?_⟩
  · match a with
    | ⟨0, _⟩ => show (Scalar.indexCast w).toNat + 1 ≤ 8; omega
    | ⟨1, _⟩ => show 0 + 128 ≤ 128; omega
  · match a with
    | ⟨0, _⟩ => show (Scalar.indexCast w).toNat + 1 ≤ 8; omega
    | ⟨1, _⟩ => show 0 + 1024 ≤ 1024; omega

/-- The offset the body loads its word at, at grid point t, is the point's coordinate. -/
theorem off_at (i : grid0.Coords) : k0_off1 i 0 = (i 0).val := by
  have hi : (i 0).val < 16 := (i 0).isLt
  show (BitVec.ofNat 32 (i 0).val).toNat = (i 0).val
  rw [BitVec.toNat_ofNat]
  exact Nat.mod_eq_of_lt (by omega)

theorem hyps_of_lt (hlt : ∀ b : Fin 16, (ids0 m (ix1 b)).toNat < 8) (hO : Ok m) : Hyps m hO := by
  intro c t
  rw [word_at m (grid0.coords t 0) _ (off_at (grid0.coords t))]
  exact chk_of_lt _ (tbl_lt m hlt (grid0.coords t 0))

end Cert.KernelIdeal.Tables

end
-- ==== Proof.KBody.lean ====
/-
  What the kernel body leaves in its output block, as a function of the blocks it was handed.

  The body loads its seven input blocks whole, except that of each small per-profile table (the down bias, the up bias,
  the normalisation's scale and shift) it loads only the row the profile word names; it stores one value, covering the
  whole output block. So the output block is the body's arithmetic applied to: the activations block, the two weight
  slabs, and row `w` of each of the four tables, where `w` is the word read from the prefetched table.
-/
import proofs.«417159_j6408091205681_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic Idealize.SL.Sem

variable {F : FTy → Type} [FloatOps F]

theorem zero3 : (![0, 0, 0] : Fin 3 → Nat) = fun _ => 0 := funext fun a => by fin_cases a <;> rfl

/-- Row `w` of an [8 × 128] table, as a [1 × 128] vector. -/
abbrev row128 (x : Vec F S8x128 .f32) (w : BitVec 32) (hw : k0_chk1 w) : Vec F S1x128 .f32 :=
  View.ld x (Rect.unit (s := S8x128) (k0_off2 w) S1x128.size (k0_off2_inb w hw))

/-- Row `w` of an [8 × 1024] table, as a [1 × 1024] vector. -/
abbrev row1024 (x : Vec F S8x1024 .f32) (w : BitVec 32) (hw : k0_chk1 w) : Vec F S1x1024 .f32 :=
  View.ld x (Rect.unit (s := S8x1024) (k0_off3 w) S1x1024.size (k0_off3_inb w hw))

/-- The output block after the body: the one store's value, over the loaded blocks and the four table rows at the
    profile word. The run found one piece covering the block; read back, it is that piece's value. -/
theorem out_eq (c : Dev nD) (i : grid0.Coords) (arg2 : Memref sig .tc .vmem S1x2048x1024 .f32) (harg2 : arg2.IsWhole) (arg3 : Memref sig .tc .vmem S1x1024x128 .f32) (harg3 : arg3.IsWhole) (arg4 : Memref sig .tc .vmem S8x128 .f32) (harg4 : arg4.IsWhole) (arg5 : Memref sig .tc .vmem S1x128x1024 .f32) (harg5 : arg5.IsWhole) (arg6 : Memref sig .tc .vmem S8x1024 .f32) (harg6 : arg6.IsWhole) (arg7 : Memref sig .tc .vmem S8x1024 .f32) (harg7 : arg7.IsWhole) (arg8 : Memref sig .tc .vmem S8x1024 .f32) (harg8 : arg8.IsWhole) (arg9 : Memref sig .tc .vmem S1x2048x1024 .f32) (harg9 : arg9.IsWhole)
    (x0 : Vec F S1x2048x1024 .f32) (x1 : Vec F S1x1024x128 .f32) (x2 : Vec F S8x128 .f32) (x3 : Vec F S1x128x1024 .f32) (x4 : Vec F S8x1024 .f32) (x5 : Vec F S8x1024 .f32) (x6 : Vec F S8x1024 .f32) (xt0 : TbBuf0 (F := F) c tbM0_0) (k0_hw1 : k0_chk1 (tbM0_0.view.readAt (Elt F) (Rect.unit (s := S16) (k0_off1 i) S1.size (k0_off1_inb i)).toLoadRect xt0 (Shape.Idx.first (numel1_S1.symm ▸ Nat.one_pos)))) :
    out0_A_7 c i arg2 harg2 arg3 harg3 arg4 harg4 arg5 harg5 arg6 harg6 arg7 harg7 arg8 harg8 arg9 harg9 x0 x1 x2 x3 x4 x5 x6 xt0 k0_hw1 =
      k0_pay1 (row1024 x5 _ k0_hw1) (row1024 x6 _ k0_hw1)
        (k0_pay4 x0 x1 x3 (row128 x2 _ k0_hw1) (row1024 x4 _ k0_hw1))
        (k0_pay5 x0 x1 x3 (row128 x2 _ k0_hw1) (row1024 x4 _ k0_hw1)) := by
  unfold out0_A_7
  rw [View.read_writes_eq_canon _ _ _ (cover0_A_7 c i arg2 harg2 arg3 harg3 arg4 harg4 arg5 harg5 arg6 harg6 arg7 harg7 arg8 harg8 arg9 harg9 x0 x1 x2 x3 x4 x5 x6 xt0 k0_hw1)]
  unfold kernelRun0_A
  dsimp only
  sl_unfold_words
  rw [View.canon_unit_zero zero3]
  simp only [View.readAt_eq_ld, Memref.IsWhole.read_unread, View.ld_unit_zero (S := S1x2048x1024) zero3,
    View.ld_unit_zero (S := S1x1024x128) zero3, View.ld_unit_zero (S := S1x128x1024) zero3]
  rfl

end Cert.KernelIdeal.Body

end
-- ==== Proof.KPayload.lean ====
/-
  The kernel body's stored value, read at one index.

  The body computes, from the blocks it loaded — the activations X : [1, 2048, 1024], the down and up weights
  Wd : [1, 1024, 128] and Wu : [1, 128, 1024], and the one-row blocks bd : [1, 128], bu, γ, β : [1, 1024] —
      z = max (X · Wd + bd) 0,   y = (X + z · Wu) + bu,   μ = (Σ_h y) / 1024,   c = y − μ,
      σ² = (Σ_h c · c) / 1024,   out = c · rsqrt (σ² + ε) · γ + β
  as whole vectors, with the row statistics kept as [2048, 1] columns and broadcast back. Read at an index each
  operation is the same operation on the elements: the pointwise ones by definition, a layout operation (dropping or
  adding the unit batch axis, a [2048] vector as a column, a column or a row broadcast over the block) as its operand
  at the matching coordinates, a lane sum as the sum over the row's 1024 coordinates, and each projection into the
  zero splat as the sum over its contraction coordinate. Composed in program order these readings are the row function
  of Spec.lean (hid, res, mean, cen, var, outRow) at the blocks' coordinates; no algebra is used.
-/
import proofs.«417159_j6408091205681_2_alg».proof.Proof.Gen.KernelIdeal.Skeleton
import proofs.«417159_j6408091205681_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-! ## The keepdims column forms of the layout operations -/

section Layout
variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two projections read at an index

Each projection contracts the left operand's second axis with the right operand's first. At output index `i` and
contraction position `q` the left operand is read at `(i 0, q)` and the right at `(q, i 1)`: one lemma per operand
and axis, then the sum over the contraction positions re-indexed by the one coordinate. -/

theorem lhs_down_0 (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl
theorem lhs_down_1 (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q
theorem rhs_down_0 (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q
theorem rhs_down_1 (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The down projection into the zero splat, at (p, c): the sum over the 1024 hidden coordinates of row p of the left factor times column c of the right. -/
theorem matmul_down_apply (prec : Option ContractPrecision) (lhs : FVec Ideal S2048x1024 .f32) (rhs : FVec Ideal S1024x128 .f32)
    (p : Fin 2048) (c : Fin 128) :
    matmul dot_S2048x1024_S1024x128_S2048x128_1_0_0_1_n_n prec lhs rhs (constant (F := Ideal) S2048x128 .f32 0x00000000#32) (ix2 p c)
      = ∑ k : Fin 1024, lhs (ix2 p k) * rhs (ix2 k c) := by
  simp only [matmul]
  rw [Ideal.matmul_constant_zero_apply, ← Equiv.sum_comp (ValueIdx.contrEquiv1 dot_S2048x1024_S1024x128_S2048x128_1_0_0_1_n_n 1024 rfl rfl).symm]
  refine Finset.sum_congr rfl fun k _ => ?_
  have hk := ValueIdx.contrEquiv1_symm_val dot_S2048x1024_S1024x128_S2048x128_1_0_0_1_n_n 1024 rfl rfl k
  have el : dot_S2048x1024_S1024x128_S2048x128_1_0_0_1_n_n.lhsIdx (ix2 p c) ((ValueIdx.contrEquiv1 dot_S2048x1024_S1024x128_S2048x128_1_0_0_1_n_n 1024 rfl rfl).symm k) = ix2 p k := funext fun a => Fin.ext (by
    match a with
    | ⟨0, _⟩ => exact lhs_down_0 _ _
    | ⟨1, _⟩ => exact (lhs_down_1 _ _).trans hk)
  have er : dot_S2048x1024_S1024x128_S2048x128_1_0_0_1_n_n.rhsIdx (ix2 p c) ((ValueIdx.contrEquiv1 dot_S2048x1024_S1024x128_S2048x128_1_0_0_1_n_n 1024 rfl rfl).symm k) = ix2 k c := funext fun a => Fin.ext (by
    match a with
    | ⟨0, _⟩ => exact (rhs_down_0 _ _).trans hk
    | ⟨1, _⟩ => exact rhs_down_1 _ _)
  rw [el, er]

theorem lhs_up_0 (i : S2048x1024.Idx) (q : dot_S2048x128_S128x1024_S2048x1024_1_0_0_1_n_n.contr.Idx) :
    (dot_S2048x128_S128x1024_S2048x1024_1_0_0_1_n_n.lhsIdx i q 0).val = (i 0).val := by
  unfold DotDims.lhsIdx
  rw [dif_neg (show ¬(0 : Fin S2048x128.rank) ∈ dot_S2048x128_S128x1024_S2048x1024_1_0_0_1_n_n.lhsBatch by decide), dif_pos (show (0 : Fin S2048x128.rank) ∈ dot_S2048x128_S128x1024_S2048x1024_1_0_0_1_n_n.lhsNonContracting by decide)]
  rfl
theorem lhs_up_1 (i : S2048x1024.Idx) (q : dot_S2048x128_S128x1024_S2048x1024_1_0_0_1_n_n.contr.Idx) :
    (dot_S2048x128_S128x1024_S2048x1024_1_0_0_1_n_n.lhsIdx i q 1).val = (q ⟨0, by decide⟩).val :=
  dot_S2048x128_S128x1024_S2048x1024_1_0_0_1_n_n.lhsIdx_val_of_single rfl i q
theorem rhs_up_0 (i : S2048x1024.Idx) (q : dot_S2048x128_S128x1024_S2048x1024_1_0_0_1_n_n.contr.Idx) :
    (dot_S2048x128_S128x1024_S2048x1024_1_0_0_1_n_n.rhsIdx i q 0).val = (q ⟨0, by decide⟩).val :=
  dot_S2048x128_S128x1024_S2048x1024_1_0_0_1_n_n.rhsIdx_val_of_single rfl i q
theorem rhs_up_1 (i : S2048x1024.Idx) (q : dot_S2048x128_S128x1024_S2048x1024_1_0_0_1_n_n.contr.Idx) :
    (dot_S2048x128_S128x1024_S2048x1024_1_0_0_1_n_n.rhsIdx i q 1).val = (i 1).val := by
  unfold DotDims.rhsIdx
  rw [dif_neg (show ¬(1 : Fin S128x1024.rank) ∈ dot_S2048x128_S128x1024_S2048x1024_1_0_0_1_n_n.rhsBatch by decide), dif_pos (show (1 : Fin S128x1024.rank) ∈ dot_S2048x128_S128x1024_S2048x1024_1_0_0_1_n_n.rhsNonContracting by decide)]
  rfl

/-- The up projection into the zero splat, at (p, c): the sum over the 128 bottleneck coordinates of row p of the left factor times column c of the right. -/
theorem matmul_up_apply (prec : Option ContractPrecision) (lhs : FVec Ideal S2048x128 .f32) (rhs : FVec Ideal S128x1024 .f32)
    (p : Fin 2048) (c : Fin 1024) :
    matmul dot_S2048x128_S128x1024_S2048x1024_1_0_0_1_n_n prec lhs rhs (constant (F := Ideal) S2048x1024 .f32 0x00000000#32) (ix2 p c)
      = ∑ k : Fin 128, lhs (ix2 p k) * rhs (ix2 k c) := by
  simp only [matmul]
  rw [Ideal.matmul_constant_zero_apply, ← Equiv.sum_comp (ValueIdx.contrEquiv1 dot_S2048x128_S128x1024_S2048x1024_1_0_0_1_n_n 128 rfl rfl).symm]
  refine Finset.sum_congr rfl fun k _ => ?_
  have hk := ValueIdx.contrEquiv1_symm_val dot_S2048x128_S128x1024_S2048x1024_1_0_0_1_n_n 128 rfl rfl k
  have el : dot_S2048x128_S128x1024_S2048x1024_1_0_0_1_n_n.lhsIdx (ix2 p c) ((ValueIdx.contrEquiv1 dot_S2048x128_S128x1024_S2048x1024_1_0_0_1_n_n 128 rfl rfl).symm k) = ix2 p k := funext fun a => Fin.ext (by
    match a with
    | ⟨0, _⟩ => exact lhs_up_0 _ _
    | ⟨1, _⟩ => exact (lhs_up_1 _ _).trans hk)
  have er : dot_S2048x128_S128x1024_S2048x1024_1_0_0_1_n_n.rhsIdx (ix2 p c) ((ValueIdx.contrEquiv1 dot_S2048x128_S128x1024_S2048x1024_1_0_0_1_n_n 128 rfl rfl).symm k) = ix2 k c := funext fun a => Fin.ext (by
    match a with
    | ⟨0, _⟩ => exact (rhs_up_0 _ _).trans hk
    | ⟨1, _⟩ => exact rhs_up_1 _ _)
  rw [el, er]

/-! ## A row's lane sum -/

/-- The sum over the second axis of a [2048, 1024] vector, at row p: the sum over the 1024 coordinates of that row. -/
theorem rowSum_apply (src : FVec Ideal S2048x1024 .f32) (hφ : FKind.Formats .f32)
    (hacc : (0x00000000#32 : BitVec 32) = 0x00000000#32) (p : Fin 2048) :
    multiReduction (F := Ideal) .add [1] S2048 src 0x00000000#32 reduces_S2048x1024_S2048 hφ hacc (ix1 p)
      = ∑ c : Fin 1024, src (ix2 p c) := by
  refine (Ideal.multiReduction_add_single src 0x00000000#32 reduces_S2048x1024_S2048 hφ hacc (ix1 p)).trans ?_
  refine Finset.sum_congr rfl fun c _ => congrArg src (funext fun a => Fin.ext ?_)
  match a with
  | ⟨0, _⟩ => rfl
  | ⟨1, _⟩ => rfl

/-! ## The loaded blocks by coordinates -/

/-- The activations block, its unit batch axis dropped. -/
abbrev actOf (v2 : Vec Ideal S1x2048x1024 .f32) : Fin 2048 → Fin 1024 → EReal := fun s j => v2 (ix3 (0 : Fin 1) s j)
/-- The down projection's weights. -/
abbrev downOf (v4 : Vec Ideal S1x1024x128 .f32) : Fin 1024 → Fin 128 → EReal := fun j k => v4 (ix3 (0 : Fin 1) j k)
/-- The up projection's weights. -/
abbrev upOf (v6 : Vec Ideal S1x128x1024 .f32) : Fin 128 → Fin 1024 → EReal := fun k h => v6 (ix3 (0 : Fin 1) k h)
/-- A one-row block of 128 as a function of the lane. -/
abbrev row128Of (v : Vec Ideal S1x128 .f32) : Fin 128 → EReal := fun k => v (ix2 (0 : Fin 1) k)
/-- A one-row block of 1024 as a function of the lane. -/
abbrev row1024Of (v : Vec Ideal S1x1024 .f32) : Fin 1024 → EReal := fun h => v (ix2 (0 : Fin 1) h)

section Payloads
variable (v2 : Vec Ideal S1x2048x1024 .f32) (v4 : Vec Ideal S1x1024x128 .f32) (v6 : Vec Ideal S1x128x1024 .f32)
  (v9 : Vec Ideal S1x128 .f32) (v11 : Vec Ideal S1x1024 .f32)

/-- The residual sum at (s, h): the input plus the up projection of the rectified down projection, plus the bias. -/
theorem pay2_apply (s : Fin 2048) (h : Fin 1024) :
    k0_pay2 (F := Ideal) v2 v4 v6 v9 v11 (ix2 s h)
      = Cert.Spec.res (actOf v2) (downOf v4) (row128Of v9) (upOf v6) (row1024Of v11) s h := by
  unfold k0_pay2 Cert.Spec.res Cert.Spec.hid
  simp only [addf_apply, maximumf_apply, broadcast_apply, matmul_up_apply, matmul_down_apply, shapeCast_1ab_ab_apply,
    broadcastTo_1b_ab_apply]
  rfl

/-- A row's mean at (s, ·): the row's sum over the hidden axis, divided by the width. -/
theorem pay3_apply (s : Fin 2048) (u : Fin 1) :
    k0_pay3 (F := Ideal) v2 v4 v6 v9 v11 (ix2 s u)
      = Cert.Spec.mean (actOf v2) (downOf v4) (row128Of v9) (upOf v6) (row1024Of v11) s := by
  unfold k0_pay3 Cert.Spec.mean
  simp only [divf_apply, broadcast_apply, shapeCast_a_a1_apply]
  rw [rowSum_apply]
  simp only [pay2_apply]
  rfl

/-- The centred row at (s, h): the residual sum less its row's mean. -/
theorem pay5_apply (s : Fin 2048) (h : Fin 1024) :
    k0_pay5 (F := Ideal) v2 v4 v6 v9 v11 (ix2 s h)
      = Cert.Spec.cen (actOf v2) (downOf v4) (row128Of v9) (upOf v6) (row1024Of v11) s h := by
  unfold k0_pay5 Cert.Spec.cen
  simp only [subf_apply, broadcastTo_a1_ab_apply, pay2_apply, pay3_apply]

/-- A row's variance at (s, ·): the sum of the centred row's squares over the hidden axis, divided by the width. -/
theorem pay4_apply (s : Fin 2048) (u : Fin 1) :
    k0_pay4 (F := Ideal) v2 v4 v6 v9 v11 (ix2 s u)
      = Cert.Spec.var (actOf v2) (downOf v4) (row128Of v9) (upOf v6) (row1024Of v11) s := by
  unfold k0_pay4 Cert.Spec.var Cert.Spec.cen
  simp only [divf_apply, broadcast_apply, shapeCast_a_a1_apply]
  rw [rowSum_apply]
  simp only [mulf_apply, subf_apply, broadcastTo_a1_ab_apply, pay2_apply, pay3_apply]
  rfl

end Payloads

/-- The reciprocal square root of a vector, read at an index, is the extended reals' of the element. -/
theorem rsqrt_apply {s : Shape} {φ : FTy} (a : FVec Ideal s φ) (i : s.Idx) : rsqrt a i = Ideal.rsqrt (a i) := rfl

/-- The stored value at (0, s, h), over any variance column and centred block: the centred entry times the reciprocal
    square root of its row's variance plus ε, scaled and shifted by the lane's parameters. -/
theorem pay1_apply (v13 v15 : Vec Ideal S1x1024 .f32) (v35 : FVec Ideal S2048x1 .f32) (v37 : FVec Ideal S2048x1024 .f32)
    (s : Fin 2048) (h : Fin 1024) :
    k0_pay1 (F := Ideal) v13 v15 v35 v37 (ix3 (0 : Fin 1) s h)
      = v37 (ix2 s h) * Ideal.rsqrt (v35 (ix2 s (0 : Fin 1)) + Cert.Spec.epsW) * row1024Of v13 h + row1024Of v15 h := by
  unfold k0_pay1
  simp only [shapeCast_ab_1ab_apply, addf_apply, mulf_apply, broadcastTo_1b_ab_apply, broadcastTo_a1_ab_apply,
    rsqrt_apply, broadcast_apply]
  rfl

/-- The body's stored value at (0, s, h), as a function of the blocks it loaded, is the adapter's row function of those
    blocks read at their coordinates. -/
theorem payload_apply (v2 : Vec Ideal S1x2048x1024 .f32) (v4 : Vec Ideal S1x1024x128 .f32) (v6 : Vec Ideal S1x128x1024 .f32)
    (v9 : Vec Ideal S1x128 .f32) (v11 v13 v15 : Vec Ideal S1x1024 .f32) (s : Fin 2048) (h : Fin 1024) :
    k0_pay1 (F := Ideal) v13 v15 (k0_pay4 v2 v4 v6 v9 v11) (k0_pay5 v2 v4 v6 v9 v11) (ix3 (0 : Fin 1) s h)
      = Cert.Spec.outRow (fun s j => v2 (ix3 (0 : Fin 1) s j)) (fun j k => v4 (ix3 (0 : Fin 1) j k)) (fun k => v9 (ix2 (0 : Fin 1) k))
          (fun k h => v6 (ix3 (0 : Fin 1) k h)) (fun h => v11 (ix2 (0 : Fin 1) h)) (fun h => v13 (ix2 (0 : Fin 1) h))
          (fun h => v15 (ix2 (0 : Fin 1) h)) s h := by
  rw [pay1_apply, pay4_apply, pay5_apply]
  rfl

end Cert.KernelIdeal.Payload

end
-- ==== Proof.KValue.lean ====
/-
  The kernel's result array as one function of its arguments.

  Grid point t works on batch row b = t: it is handed block b of the activations, the down and up weight slabs of the
  profile the table names for b, and the four small tables whole; it writes block b of the result. Every index of the
  result lies in exactly the block of its own batch row, so the sixteen blocks tile the array and the array ends
  holding the adapter function of the arguments, the table standing for the profile ids.
-/
import proofs.«417159_j6408091205681_2_alg».proof.Proof.Gen.KernelIdeal.Frame
import proofs.«417159_j6408091205681_2_alg».proof.Proof.Spec
import proofs.«417159_j6408091205681_2_alg».proof.Proof.KBody
import proofs.«417159_j6408091205681_2_alg».proof.Proof.KPayload
import proofs.«417159_j6408091205681_2_alg».proof.Proof.KITables
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Body
open Idealize.ShloMosaic Idealize.ShloMosaic.TcCoe Idealize.SL.Sem Idealize.ShloMosaic.ValueIdx
open Idealize.ShloMosaic.Pipeline (Dat)

/-! ## One row of a small table -/

/-- A word that names a row of the eight-row tables is below 8. -/
theorem lt_of_chk (w : BitVec 32) (hw : k0_chk1 w) : w.toNat < 8 := by
  have h := hw.1 (0 : Fin 2)
  have e : k0_off2 w (0 : Fin 2) = w.toNat := rfl
  have e1 : S1x128.size (0 : Fin 2) = 1 := rfl
  have e8 : S8x128.size (0 : Fin 2) = 8 := rfl
  rw [e, e1, e8] at h
  omega

/-- Row w of an [8 × 128] table at column k. -/
theorem row128_apply {F : FTy → Type} [FloatOps F] (x : Vec F S8x128 .f32) (w : BitVec 32) (hw : k0_chk1 w) (r : Fin 8) (hr : r.val = w.toNat)
    (k : Fin 128) : row128 x w hw (ix2 (0 : Fin 1) k) = x (ix2 r k) := by
  show x ((Rect.unit (s := S8x128) (k0_off2 w) S1x128.size (k0_off2_inb w hw)).idx (ix2 (0 : Fin 1) k)) = _
  refine congrArg x ?_
  funext a
  apply Fin.ext
  match a with
  | ⟨0, _⟩ => show w.toNat + 1 * 0 = r.val; omega
  | ⟨1, _⟩ => show 0 + 1 * k.val = k.val; omega

/-- Row w of an [8 × 1024] table at column h. -/
theorem row1024_apply {F : FTy → Type} [FloatOps F] (x : Vec F S8x1024 .f32) (w : BitVec 32) (hw : k0_chk1 w) (r : Fin 8) (hr : r.val = w.toNat)
    (h : Fin 1024) : row1024 x w hw (ix2 (0 : Fin 1) h) = x (ix2 r h) := by
  show x ((Rect.unit (s := S8x1024) (k0_off3 w) S1x1024.size (k0_off3_inb w hw)).idx (ix2 (0 : Fin 1) h)) = _
  refine congrArg x ?_
  funext a
  apply Fin.ext
  match a with
  | ⟨0, _⟩ => show w.toNat + 1 * 0 = r.val; omega
  | ⟨1, _⟩ => show 0 + 1 * h.val = h.val; omega

/-! ## What one grid point computes, over variables -/

/-- If the blocks a point is handed are block b of the activations, the slabs of profile w of the two weight arrays and
    the four tables whole, and w is the id of batch row b, then the value it stores, at (0, s, h), is the adapter function
    of the whole arrays at (b, s, h). -/
theorem point_eq (X : S16x2048x1024.Idx → EReal) (ids : IVec S16 32) (WD : S8x1024x128.Idx → EReal) (BD : S8x128.Idx → EReal)
    (WU : S8x128x1024.Idx → EReal) (BU GA BE : S8x1024.Idx → EReal)
    (b : Fin 16) (w : BitVec 32) (hw : k0_chk1 w) (hwb : ids (ix1 b) = w) (r : Fin 8) (hr : r.val = w.toNat)
    (x0 : Vec Ideal S1x2048x1024 .f32) (x1 : Vec Ideal S1x1024x128 .f32) (x2 : Vec Ideal S8x128 .f32)
    (x3 : Vec Ideal S1x128x1024 .f32) (x4 x5 x6 : Vec Ideal S8x1024 .f32)
    (h0 : ∀ s j, x0 (ix3 (0 : Fin 1) s j) = X (ix3 b s j))
    (h1 : ∀ j k, x1 (ix3 (0 : Fin 1) j k) = WD (ix3 r j k))
    (h2 : x2 = BD)
    (h3 : ∀ k h, x3 (ix3 (0 : Fin 1) k h) = WU (ix3 r k h))
    (h4 : x4 = BU) (h5 : x5 = GA) (h6 : x6 = BE) (s : Fin 2048) (h : Fin 1024) :
    k0_pay1 (F := Ideal) (row1024 x5 w hw) (row1024 x6 w hw)
        (k0_pay4 x0 x1 x3 (row128 x2 w hw) (row1024 x4 w hw))
        (k0_pay5 x0 x1 x3 (row128 x2 w hw) (row1024 x4 w hw)) (ix3 (0 : Fin 1) s h)
      = Cert.Spec.G X ids WD BD WU BU GA BE (ix3 b s h) := by
  have hrow : Cert.Spec.rowOf ids b = r := by
    apply Fin.ext
    have h8 := lt_of_chk w hw
    show min (ids (ix1 b)).toNat 7 = r.val
    rw [hwb]; omega
  rw [Cert.KernelIdeal.Payload.payload_apply]
  show _ = Cert.Spec.outRow (fun s j => X (ix3 b s j)) (fun j k => WD (ix3 (Cert.Spec.rowOf ids b) j k))
    (fun k => BD (ix2 (Cert.Spec.rowOf ids b) k)) (fun k h => WU (ix3 (Cert.Spec.rowOf ids b) k h))
    (fun h => BU (ix2 (Cert.Spec.rowOf ids b) h)) (fun h => GA (ix2 (Cert.Spec.rowOf ids b) h))
    (fun h => BE (ix2 (Cert.Spec.rowOf ids b) h)) s h
  rw [hrow]
  have e0 : (fun s j => x0 (ix3 (0 : Fin 1) s j)) = fun s j => X (ix3 b s j) := funext fun s => funext fun j => h0 s j
  have e1 : (fun j k => x1 (ix3 (0 : Fin 1) j k)) = fun j k => WD (ix3 r j k) := funext fun j => funext fun k => h1 j k
  have e2 : (fun k => row128 x2 w hw (ix2 (0 : Fin 1) k)) = fun k => BD (ix2 r k) :=
    funext fun k => (row128_apply x2 w hw r hr k).trans (by rw [h2])
  have e3 : (fun k h => x3 (ix3 (0 : Fin 1) k h)) = fun k h => WU (ix3 r k h) := funext fun k => funext fun h => h3 k h
  have e4 : (fun h => row1024 x4 w hw (ix2 (0 : Fin 1) h)) = fun h => BU (ix2 r h) :=
    funext fun h => (row1024_apply x4 w hw r hr h).trans (by rw [h4])
  have e5 : (fun h => row1024 x5 w hw (ix2 (0 : Fin 1) h)) = fun h => GA (ix2 r h) :=
    funext fun h => (row1024_apply x5 w hw r hr h).trans (by rw [h5])
  have e6 : (fun h => row1024 x6 w hw (ix2 (0 : Fin 1) h)) = fun h => BE (ix2 r h) :=
    funext fun h => (row1024_apply x6 w hw r hr h).trans (by rw [h6])
  rw [e0, e1, e2, e3, e4, e5, e6]

/-! ## Where each window's block sits, at any contents of the table -/

section Blocks

variable {F : FTy → Type} [FloatOps F]

/-- A batch-row coordinate survives the round trip through a 32-bit word. -/
theorem word_coord (i : grid0.Coords) : (BitVec.ofNat 32 (i 0).val).toNat = (i 0).val := by
  have hi : (i 0).val < 16 := (i 0).isLt
  rw [BitVec.toNat_ofNat]
  exact Nat.mod_eq_of_lt (by omega)

/-- The activations' block at a point is batch row (point) of the array. -/
theorem emb_in (a : (pcfg0 (F := F)).Adm) (t : Fin (cfg0 a).N) (s : Fin 2048) (j : Fin 1024) :
    (((cfg0 a).win 0).blk t).view.emb (ix3 (0 : Fin 1) s j) = ix3 (grid0.coords t 0) s j := by
  have e := word_coord (grid0.coords t)
  funext x
  apply Fin.ext
  match x with
  | ⟨0, _⟩ => show (BitVec.ofNat 32 (grid0.coords t 0).val).toNat * 1 + 1 * 0 = (grid0.coords t 0).val; omega
  | ⟨1, _⟩ => show 0 * 2048 + 1 * s.val = s.val; omega
  | ⟨2, _⟩ => show 0 * 1024 + 1 * j.val = j.val; omega

/-- The result's block at a point is batch row (point) of the array. -/
theorem emb_out (a : (pcfg0 (F := F)).Adm) (t : Fin (cfg0 a).N) (s : Fin 2048) (h : Fin 1024) :
    (((cfg0 a).win 7).blk t).view.emb (ix3 (0 : Fin 1) s h) = ix3 (grid0.coords t 0) s h := by
  have e := word_coord (grid0.coords t)
  funext x
  apply Fin.ext
  match x with
  | ⟨0, _⟩ => show (BitVec.ofNat 32 (grid0.coords t 0).val).toNat * 1 + 1 * 0 = (grid0.coords t 0).val; omega
  | ⟨1, _⟩ => show 0 * 2048 + 1 * s.val = s.val; omega
  | ⟨2, _⟩ => show 0 * 1024 + 1 * h.val = h.val; omega

/-- The table entry the two table-reading index maps read at a point: the entry of the point's batch row. -/
theorem map_word (pf : pre0.Contents (Elt F)) (i : grid0.Coords) :
    pf.at 0 (Rect.unit (s := S16) ![(Scalar.indexCast (BitVec.ofNat 32 (i 0).val)).toNat] S1.size (Facts₀.k0_off1_inb i)) Facts₀.numel1_S1
      = pf 0 (ix1 (i 0)) := by
  have e := word_coord i
  show pf 0 _ = pf 0 _
  refine congrArg (pf 0) ?_
  funext x
  apply Fin.ext
  match x with
  | ⟨0, _⟩ => show (BitVec.ofNat 32 (i 0).val).toNat + 1 * 0 = (i 0).val; omega

/-- The down-projection slab at a point is the slab of the profile the table names for the point's batch row. -/
theorem emb_down (a : (pcfg0 (F := F)).Adm) (t : Fin (cfg0 a).N) (r : Fin 8) (hr : r.val = (a.1 0 (ix1 (grid0.coords t 0))).toNat)
    (j : Fin 1024) (k : Fin 128) :
    (((cfg0 a).win 1).blk t).view.emb (ix3 (0 : Fin 1) j k) = ix3 r j k := by
  have e := map_word a.1 (grid0.coords t)
  funext x
  apply Fin.ext
  match x with
  | ⟨0, _⟩ =>
    show (a.1.at 0 (Rect.unit (s := S16) ![(Scalar.indexCast (BitVec.ofNat 32 (grid0.coords t 0).val)).toNat] S1.size (Facts₀.k0_off1_inb (grid0.coords t))) Facts₀.numel1_S1).toNat * 1 + 1 * 0 = r.val
    rw [e]; omega
  | ⟨1, _⟩ => show 0 * 1024 + 1 * j.val = j.val; omega
  | ⟨2, _⟩ => show 0 * 128 + 1 * k.val = k.val; omega

/-- The up-projection slab likewise. -/
theorem emb_up (a : (pcfg0 (F := F)).Adm) (t : Fin (cfg0 a).N) (r : Fin 8) (hr : r.val = (a.1 0 (ix1 (grid0.coords t 0))).toNat)
    (k : Fin 128) (h : Fin 1024) :
    (((cfg0 a).win 3).blk t).view.emb (ix3 (0 : Fin 1) k h) = ix3 r k h := by
  have e := map_word a.1 (grid0.coords t)
  funext x
  apply Fin.ext
  match x with
  | ⟨0, _⟩ =>
    show (a.1.at 0 (Rect.unit (s := S16) ![(Scalar.indexCast (BitVec.ofNat 32 (grid0.coords t 0).val)).toNat] S1.size (Facts₀.k0_off1_inb (grid0.coords t))) Facts₀.numel1_S1).toNat * 1 + 1 * 0 = r.val
    rw [e]; omega
  | ⟨1, _⟩ => show 0 * 128 + 1 * k.val = k.val; omega
  | ⟨2, _⟩ => show 0 * 1024 + 1 * h.val = h.val; omega

/-- A small table's block is the whole table, at every point. -/
theorem emb_bd (a : (pcfg0 (F := F)).Adm) (t : Fin (cfg0 a).N) (y : S8x128.Idx) : (((cfg0 a).win 2).blk t).view.emb y = y := by
  funext x
  apply Fin.ext
  match x with
  | ⟨0, _⟩ => show 0 * 8 + 1 * (y 0).val = (y 0).val; omega
  | ⟨1, _⟩ => show 0 * 128 + 1 * (y 1).val = (y 1).val; omega
theorem emb_bu (a : (pcfg0 (F := F)).Adm) (t : Fin (cfg0 a).N) (y : S8x1024.Idx) : (((cfg0 a).win 4).blk t).view.emb y = y := by
  funext x
  apply Fin.ext
  match x with
  | ⟨0, _⟩ => show 0 * 8 + 1 * (y 0).val = (y 0).val; omega
  | ⟨1, _⟩ => show 0 * 1024 + 1 * (y 1).val = (y 1).val; omega
theorem emb_ga (a : (pcfg0 (F := F)).Adm) (t : Fin (cfg0 a).N) (y : S8x1024.Idx) : (((cfg0 a).win 5).blk t).view.emb y = y := by
  funext x
  apply Fin.ext
  match x with
  | ⟨0, _⟩ => show 0 * 8 + 1 * (y 0).val = (y 0).val; omega
  | ⟨1, _⟩ => show 0 * 1024 + 1 * (y 1).val = (y 1).val; omega
theorem emb_be (a : (pcfg0 (F := F)).Adm) (t : Fin (cfg0 a).N) (y : S8x1024.Idx) : (((cfg0 a).win 6).blk t).view.emb y = y := by
  funext x
  apply Fin.ext
  match x with
  | ⟨0, _⟩ => show 0 * 8 + 1 * (y 0).val = (y 0).val; omega
  | ⟨1, _⟩ => show 0 * 1024 + 1 * (y 1).val = (y 1).val; omega

/-- A grid point's one coordinate is its number. -/
theorem coords_val : ∀ t : Fin grid0.N, (grid0.coords t 0).val = t.val := by decide +kernel

/-- Every batch row is some grid point's. -/
theorem coords_onto (q : Fin 16) : ∃ t : Fin grid0.N, grid0.coords t 0 = q :=
  ⟨⟨q.val, by rw [N_0]; exact q.isLt⟩, Fin.ext (coords_val _)⟩

end Blocks

/-! ## The run: what each point writes back, the cover, the final array -/

section Run

variable (m : (ℓ : Loc nD τ sig) → Buf (Elt Ideal) ℓ) (ρ : Dev nD → PrngReg)

/-- The adapter function of the arrays as the region finds them, the table standing for the ids. -/
abbrev GV (c : Dev nD) : S16x2048x1024.Idx → EReal :=
  Cert.Spec.G (V m c main_arg0) (tbl m 0) (V m c main_arg2) (V m c main_arg3) (V m c main_arg4) (V m c main_arg5)
    (V m c main_arg6) (V m c main_arg7)

/-- The block of activations a point is handed is its batch row of the array. -/
theorem read_in (hO : Ok m) (c : Dev nD) (t : Fin (cfgM m hO).N) (s : Fin 2048) (j : Fin 1024) :
    iblk m hO c 0 t (ix3 (0 : Fin 1) s j) = V m c main_arg0 (ix3 (grid0.coords t 0) s j) := by
  unfold iblk
  show V m c main_arg0 ((((cfgM m hO).win 0).blk t).view.emb (ix3 (0 : Fin 1) s j)) = _
  exact congrArg (V m c main_arg0) (emb_in (adm m hO) t s j)

/-- The down-projection slab a point is handed is the slab of the profile the table names for its batch row. -/
theorem read_down (hO : Ok m) (c : Dev nD) (t : Fin (cfgM m hO).N) (r : Fin 8) (hr : r.val = (tbl m 0 (ix1 (grid0.coords t 0))).toNat)
    (j : Fin 1024) (k : Fin 128) :
    iblk m hO c 1 t (ix3 (0 : Fin 1) j k) = V m c main_arg2 (ix3 r j k) := by
  unfold iblk
  show V m c main_arg2 ((((cfgM m hO).win 1).blk t).view.emb (ix3 (0 : Fin 1) j k)) = _
  exact congrArg (V m c main_arg2) (emb_down (adm m hO) t r hr j k)

/-- The up-projection slab likewise. -/
theorem read_up (hO : Ok m) (c : Dev nD) (t : Fin (cfgM m hO).N) (r : Fin 8) (hr : r.val = (tbl m 0 (ix1 (grid0.coords t 0))).toNat)
    (k : Fin 128) (h : Fin 1024) :
    iblk m hO c 3 t (ix3 (0 : Fin 1) k h) = V m c main_arg4 (ix3 r k h) := by
  unfold iblk
  show V m c main_arg4 ((((cfgM m hO).win 3).blk t).view.emb (ix3 (0 : Fin 1) k h)) = _
  exact congrArg (V m c main_arg4) (emb_up (adm m hO) t r hr k h)

/-- Each small table is handed whole. -/
theorem read_bd (hO : Ok m) (c : Dev nD) (t : Fin (cfgM m hO).N) : iblk m hO c 2 t = V m c main_arg3 := by
  funext y
  unfold iblk
  show V m c main_arg3 ((((cfgM m hO).win 2).blk t).view.emb y) = _
  exact congrArg (V m c main_arg3) (emb_bd (adm m hO) t y)
theorem read_bu (hO : Ok m) (c : Dev nD) (t : Fin (cfgM m hO).N) : iblk m hO c 4 t = V m c main_arg5 := by
  funext y
  unfold iblk
  show V m c main_arg5 ((((cfgM m hO).win 4).blk t).view.emb y) = _
  exact congrArg (V m c main_arg5) (emb_bu (adm m hO) t y)
theorem read_ga (hO : Ok m) (c : Dev nD) (t : Fin (cfgM m hO).N) : iblk m hO c 5 t = V m c main_arg6 := by
  funext y
  unfold iblk
  show V m c main_arg6 ((((cfgM m hO).win 5).blk t).view.emb y) = _
  exact congrArg (V m c main_arg6) (emb_ga (adm m hO) t y)
theorem read_be (hO : Ok m) (c : Dev nD) (t : Fin (cfgM m hO).N) : iblk m hO c 6 t = V m c main_arg7 := by
  funext y
  unfold iblk
  show V m c main_arg7 ((((cfgM m hO).win 6).blk t).view.emb y) = _
  exact congrArg (V m c main_arg7) (emb_be (adm m hO) t y)

/-- WHAT POINT t WRITES BACK is block t of the adapter function of the arrays. -/
theorem flushed_eq (hO : Ok m) (hH : Hyps m hO) (c : Dev nD) (t : Fin (cfgM m hO).N) :
    (dats m hO hH 0 c).flushed 7 t = (((cfgM m hO).win 7).blk t).view.read (Elt Ideal) (GV m c) := by
  show ((cfgM m hO).win 7).cut (grid0.coords t) ((dats m hO hH 0 c).after 7 t) = _
  rw [after0_7]
  unfold outsAt0
  funext y
  obtain ⟨z, s, h, rfl⟩ : ∃ (z : Fin 1) (s : Fin 2048) (h : Fin 1024), y = (ix3 z s h : S1x2048x1024.Idx) :=
    ⟨_, _, _, eq_ix3 (show S1x2048x1024.Idx from y)⟩
  obtain rfl : z = 0 := Subsingleton.elim _ _
  show out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (Hyps.c0 hH c t) (ix3 (0 : Fin 1) s h)
    = GV m c ((((cfgM m hO).win 7).blk t).view.emb (ix3 (0 : Fin 1) s h))
  rw [emb_out (adm m hO) t s h]
  have hwb := (Cert.KernelIdeal.Tables.word_at m (grid0.coords t 0) (k0_off1 (grid0.coords t)) (Cert.KernelIdeal.Tables.off_at (grid0.coords t))
    (Facts₀.k0_off1_inb (grid0.coords t)) (Facts₀.numel1_S1.symm ▸ Nat.one_pos)).symm
  have hlt : (tbl m 0 (ix1 (grid0.coords t 0))).toNat < 8 := by rw [hwb]; exact lt_of_chk _ (Hyps.c0 hH c t)
  refine (congrFun (Body.out_eq (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0) (Hyps.c0 hH c t)) (ix3 (0 : Fin 1) s h)).trans ?_
  exact point_eq (V m c main_arg0) (tbl m 0) (V m c main_arg2) (V m c main_arg3) (V m c main_arg4) (V m c main_arg5) (V m c main_arg6) (V m c main_arg7)
    (grid0.coords t 0) _ (Hyps.c0 hH c t) hwb ⟨(tbl m 0 (ix1 (grid0.coords t 0))).toNat, hlt⟩ (congrArg BitVec.toNat hwb)
    (iblk m hO c 0 t) (iblk m hO c 1 t) (iblk m hO c 2 t) (iblk m hO c 3 t) (iblk m hO c 4 t) (iblk m hO c 5 t) (iblk m hO c 6 t)
    (read_in m hO c t) (read_down m hO c t _ rfl) (read_bd m hO c t) (read_up m hO c t _ rfl) (read_bu m hO c t) (read_ga m hO c t) (read_be m hO c t) s h

/-- Every index of the result lies in the block of the grid point that works on its batch row. -/
theorem cover (hO : Ok m) (i : S16x2048x1024.Idx) :
    ∃ t : Fin (cfgM m hO).N, ((cfgM m hO).win 7).flush t = true ∧ i ∈ (((cfgM m hO).win 7).blk t).view.set := by
  obtain ⟨t, ht⟩ := coords_onto (i 0)
  refine ⟨t, flush0_7 (adm m hO) t, ?_⟩
  have e : i = (((cfgM m hO).win 7).blk t).view.emb (ix3 (0 : Fin 1) (i 1) (i 2)) := by
    rw [emb_out (adm m hO) t (i 1) (i 2), ht]
    exact eq_ix3 i
  rw [e]
  exact View.emb_mem_set _ _

/-- THE RESULT ARRAY after the run: the adapter function of the arrays as the region finds them. -/
theorem final (hO : Ok m) (hH : Hyps m hO) (c : Dev nD) : (dats m hO hH 0 c).arrAt 7 (cfgM m hO).N = GV m c :=
  (dats m hO hH 0 c).arrAt_eq_of_cover 7 (GV m c) (fun t _ => flushed_eq m hO hH c t) (cover m hO)

/-- The region finds the arguments as launched, so the function of the arrays it finds is the function of the arguments. -/
theorem GV_eq (c : Dev nD) :
    GV m c = Cert.Spec.G (m ((c : Thread nD τ).loc main_arg0)) (tbl m 0) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  unfold GV
  rw [V_main_arg0, V_main_arg2, V_main_arg3, V_main_arg4, V_main_arg5, V_main_arg6, V_main_arg7]

/-- The kernel's run with its result named: every weakly fair execution ends with the result array at the adapter
    function of the arguments (the table standing for the ids) and the arguments unchanged. -/
theorem run (hO : Ok m) (hH : Hyps m hO) :
    θ_run defs (onTc (τ := τ) (main (F := Ideal))) ⟨m, fun _ => 0, ρ⟩ (fun r => ∀ c : Dev nD,
      r.2.mem ((c.tc : Thread nD τ).loc main_v1) = Cert.Spec.G (m ((c : Thread nD τ).loc main_arg0)) (tbl m 0)
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 7).trans ((final m hO hH c).trans (GV_eq m c)),
      ((h c).1 0).trans (((dats m hO hH 0 c).arrAt_in 0 rfl _).trans ((A_eq m hO hH c 0).trans (V_main_arg0 m c))),
      ((h c).2 main_arg1 (by decide : main_arg1 ∈ Pipeline.restRefs sig spec0)).trans (V_main_arg1 m c),
      ((h c).1 1).trans (((dats m hO hH 0 c).arrAt_in 1 rfl _).trans ((A_eq m hO hH c 1).trans (V_main_arg2 m c))),
      ((h c).1 2).trans (((dats m hO hH 0 c).arrAt_in 2 rfl _).trans ((A_eq m hO hH c 2).trans (V_main_arg3 m c))),
      ((h c).1 3).trans (((dats m hO hH 0 c).arrAt_in 3 rfl _).trans ((A_eq m hO hH c 3).trans (V_main_arg4 m c))),
      ((h c).1 4).trans (((dats m hO hH 0 c).arrAt_in 4 rfl _).trans ((A_eq m hO hH c 4).trans (V_main_arg5 m c))),
      ((h c).1 5).trans (((dats m hO hH 0 c).arrAt_in 5 rfl _).trans ((A_eq m hO hH c 5).trans (V_main_arg6 m c))),
      ((h c).1 6).trans (((dats m hO hH 0 c).arrAt_in 6 rfl _).trans ((A_eq m hO hH c 6).trans (V_main_arg7 m c)))⟩)
    (run_main m ρ hO hH)

end Run

end Cert.KernelIdeal.KValue

end
-- ==== Proof.LibGather.lean ====
/-
  Two gathers and one scatter read at an index.

  * jnp's `take_along_axis (a, idx[:, None], axis = 1)` over an [R × C] table prints as a gather with the row as a
    batching axis: result row r reads column `idx r` (read signed and clamped into the row) of row r.
  * jnp's `y[idx]` over the rows of an [N × C] array prints as a gather whose one start-index component names the
    row and whose offset axis runs over the columns: result (r, c) reads (row `idx r` clamped, c).
  * jnp's `zeros.at[idx].set(v)` over rows prints as a scatter whose body returns the update: when the row numbers
    `idx r` are in range and pairwise distinct, row `idx r` of the result is row r of the updates, and a row that is
    no `idx r` keeps the operand's.
-/
import Mathlib.Logic.Equiv.Defs
import Mathlib.Tactic.Set
import Idealize.ShloMosaic.Lib.StableHlo.Predicate
import Idealize.ShloMosaic.PureOps.ShapeOps

namespace Cert.LibGather

open Idealize.ShloMosaic Idealize.ShloMosaic.StableHlo.Predicate

/-- Entry (r, 0, 0) of an [R × 1 × 1] array of start indices. -/
abbrev ixR11 {R : Nat} (r : Fin R) : (⟨3, ![R, 1, 1]⟩ : Shape).Idx := fun | ⟨0, _⟩ => r | ⟨1, _⟩ => (0 : Fin 1) | ⟨2, _⟩ => (0 : Fin 1)

/-! ## The two gathers

Both proofs read the operand index one operand axis at a time: it is the clamped start plus the batching coordinate
plus the offset coordinate, and with the dimension numbers literal each of the three is a closed term. -/

/-- TAKE ALONG THE SECOND AXIS: the row is a batching axis of both the table and the start indices, the column the one
    collapsed, start-indexed axis, the index vector on the start indices' last axis. -/
theorem gather_along_cols {α : Type} {R C w : Nat} (d : GatherDims ⟨2, ![R, C]⟩ ⟨3, ![R, 1, 1]⟩ ⟨2, ![R, 1]⟩)
    (hoff : d.offsetDims = []) (hcoll : d.collapsedSliceDims = [1]) (hob : d.operandBatchingDims = [0])
    (hsb : d.startIndicesBatchingDims = [0]) (hsim : d.startIndexMap = [1]) (hivd : d.indexVectorDim = 2)
    (x : (⟨2, ![R, C]⟩ : Shape).Idx → α) (idx : IVec ⟨3, ![R, 1, 1]⟩ w) (r : Fin R) (hC : 0 < C) :
    Host.gather d x idx (ixP r) = x (ij r ⟨min (idx (ixR11 r)).toInt.toNat (C - 1), by omega⟩) := by
  obtain ⟨od, cd, ob, sb, sm, iv, ss, wf⟩ := d
  simp only at hoff hcoll hob hsb hsim hivd
  subst hoff hcoll hob hsb hsim hivd
  unfold Host.gather
  congr 1
  funext a
  apply Fin.ext
  match a with
  | ⟨0, _⟩ =>
    -- the row: a batching axis, so the start is 0 and there is no offset; the batching coordinate is the
    -- result's coordinate on its batch axis 0, which reads the start indices' axis 0
    show GatherDims.start _ _ _ 0 + GatherDims.batchCoord _ _ 0 + GatherDims.offCoord _ _ 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    -- the column: collapsed (slice size 1, no offset) and not batching; its start is component 0 of the start
    -- index, read at the start-indices index (r, 0, 0) and clamped to [0, C − 1]
    have hsl : ss 1 = 1 := wf.2.2.2.2.2.2.2.2.2.2.2.1 1 (List.mem_singleton.mpr rfl)
    show GatherDims.start _ _ _ 1 + GatherDims.batchCoord _ _ 1 + GatherDims.offCoord _ _ 1 = min _ _
    rw [GatherDims.batchCoord_eq_zero _ _ _ (show (1 : Fin 2) ∉ [(0 : Fin 2)] by decide),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (C - ss 1) = _
    rw [hsl]
    congr 3
    congr 1
    funext b
    apply Fin.ext
    match b with
    | ⟨0, _⟩ => rfl
    | ⟨1, _⟩ => rfl
    | ⟨2, _⟩ => rfl

/-- TAKE OF ROWS: one collapsed, start-indexed row axis; the columns are the offset axis. -/
theorem gather_rows {α : Type} {N R C w : Nat} (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (r : Fin R) (c : Fin C) (hN : 0 < N) :
    Host.gather d x idx (ij r c) = x (ij ⟨min (idx (ixP r)).toInt.toNat (N - 1), by omega⟩ c) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the row: collapsed (slice size 1, no offset), no batching; its start is component 0 of the start index,
    -- read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the column: not in the start index map (start 0), not batching; the offset coordinate is the result's
    -- coordinate on its one offset axis
    show GatherDims.start _ _ _ 1 + GatherDims.batchCoord _ _ 1 + GatherDims.offCoord _ _ 1 = c.val
    rw [GatherDims.batchCoord_eq_zero _ _ _ List.not_mem_nil]
    unfold GatherDims.start
    rw [dif_neg (show (1 : Fin 2) ∉ [(0 : Fin 2)] by decide)]
    simp only [Nat.zero_add]
    rfl

/-! ## A left fold of point writes, read at one cell

The scatter is a left fold, over the update indices in order, of "write `v n` at the cell `g n` names, if it names
one". Read at a cell `i₀`: if no update names `i₀` the fold leaves it; if some update names it and every update that
names it carries the same value, the fold ends with that value there, whatever the order. The step is kept abstract
(any function with the two defining equations), so that the lemmas apply to the fold as the scatter spells it. -/

/-- A left fold of point writes leaves a cell no write names as it was. -/
theorem foldl_set_miss {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) :
    ∀ (L : List β) (x : ι → α), (∀ n ∈ L, g n ≠ some i₀) → (L.foldl step x) i₀ = x i₀ := by
  intro L
  induction L with
  | nil => intro x _; rfl
  | cons n L ih =>
    intro x h
    rw [List.foldl_cons, ih _ (fun m hm => h m (List.mem_cons_of_mem _ hm))]
    have hn := h n (List.mem_cons_self ..)
    cases hg : g n with
    | none => rw [hnone x n hg]
    | some i =>
      have hne : i₀ ≠ i := fun e => hn (by rw [hg, e])
      rw [hsome x n i hg, if_neg hne]

/-- A left fold of point writes: a cell that some write names, all of whose writers carry the value `a`, ends at `a`.
    By induction on the list: if a later write names the cell, the induction hypothesis applies to the tail from the
    array after the head's step; if none does, the tail leaves the cell as the head's step made it, and the head is
    then the write that names it. -/
theorem foldl_set_hit {β ι α : Type} [DecidableEq ι] (g : β → Option ι) (v : β → α)
    (step : (ι → α) → β → ι → α)
    (hsome : ∀ r n i, g n = some i → ∀ i', step r n i' = if i' = i then v n else r i')
    (hnone : ∀ r n, g n = none → step r n = r) (i₀ : ι) (a : α) :
    ∀ (L : List β) (x : ι → α), (∃ n ∈ L, g n = some i₀) → (∀ n ∈ L, g n = some i₀ → v n = a) →
      (L.foldl step x) i₀ = a := by
  intro L
  induction L with
  | nil => intro x h; obtain ⟨n, hn, _⟩ := h; cases hn
  | cons n L ih =>
    intro x hex hval
    rw [List.foldl_cons]
    by_cases hL : ∃ m ∈ L, g m = some i₀
    · exact ih _ hL (fun m hm => hval m (List.mem_cons_of_mem _ hm))
    · have hmiss : ∀ m ∈ L, g m ≠ some i₀ := fun m hm e => hL ⟨m, hm, e⟩
      rw [foldl_set_miss g v step hsome hnone i₀ L _ hmiss]
      obtain ⟨m, hm, hgm⟩ := hex
      rcases List.mem_cons.mp hm with rfl | hm'
      · rw [hsome x m i₀ hgm, if_pos rfl]
        exact hval m (List.mem_cons_self ..) hgm
      · exact absurd hgm (hmiss m hm')

/-! ## The scatter of rows -/

/-- Where update (r', c') of a set-of-rows scatter lands: at (row r', c'). On the row axis the start is the scatter
    index of r' (read signed, here the in-range number `row r'`) and the window coordinate 0 (the axis is inserted);
    on the column axis the start is 0 (the map does not name it) and the window coordinate c'. Both are in range. -/
theorem scatter_rows_resultIdx {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1) (idx : IVec ⟨2, ![R, 1]⟩ w)
    (row : Fin R → Fin N) (hrow : ∀ r, (idx (ixP r)).toInt = ((row r).val : Int))
    (j : (⟨2, ![R, C]⟩ : Shape).Idx) :
    d.resultIdx? j idx = some (ij (row (j 0)) (j 1)) := by
  obtain ⟨uw, iw, sd, iv, wf⟩ := d
  simp only at huw hiw hsd hivd
  subst huw hiw hsd hivd
  set d : ScatterDims ⟨2, ![N, C]⟩ ⟨2, ![R, 1]⟩ ⟨2, ![R, C]⟩ :=
    { updateWindowDims := [1], insertedWindowDims := [0], scatterDimsToOperandDims := [0], indexVectorDim := 1, wf := wf } with hd
  have hs0 : d.start j idx 0 = ((row (j 0)).val : Int) := by
    unfold ScatterDims.start
    rw [dif_pos (List.mem_singleton.mpr rfl)]
    refine Eq.trans ?_ (hrow (j 0))
    congr 2
    funext b
    apply Fin.ext
    match b with
    | ⟨0, _⟩ => rfl
    | ⟨1, _⟩ => rfl
  have hw0 : d.window j 0 = 0 := rfl
  have hs1 : d.start j idx 1 = 0 := rfl
  have hw1 : d.window j 1 = (j 1).val := rfl
  have h : ∀ a, 0 ≤ d.start j idx a + d.window j a ∧ d.start j idx a + d.window j a < (⟨2, ![N, C]⟩ : Shape).size a := by
    intro a
    match a with
    | ⟨0, _⟩ =>
      show 0 ≤ d.start j idx 0 + d.window j 0 ∧ d.start j idx 0 + (d.window j 0 : Int) < (N : Int)
      rw [hs0, hw0]
      have := (row (j 0)).isLt
      omega
    | ⟨1, _⟩ =>
      show 0 ≤ d.start j idx 1 + d.window j 1 ∧ d.start j idx 1 + (d.window j 1 : Int) < (C : Int)
      rw [hs1, hw1]
      have : (j 1).val < C := (j 1).isLt
      omega
  unfold ScatterDims.resultIdx?
  rw [dif_pos h]
  congr 1
  funext a
  apply Fin.ext
  match a with
  | ⟨0, _⟩ =>
    show (d.start j idx 0 + (d.window j 0 : Int)).toNat = (row (j 0)).val
    rw [hs0, hw0]; simp
  | ⟨1, _⟩ =>
    show (d.start j idx 1 + (d.window j 1 : Int)).toNat = (j 1).val
    rw [hs1, hw1]; simp

/-- SET OF ROWS at in-range, pairwise distinct row numbers: row `row r` of the result is row r of the updates.
    Update (r, c) lands on (row r, c); an update (r', c') that lands there has row r' = row r and c' = c, so it is
    update (r, c) itself since `row` is injective: every writer of the cell carries `upd (r, c)`. -/
theorem scatter_rows_hit {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int)) (hinj : Function.Injective row)
    (r : Fin R) (c : Fin C) :
    Host.scatter d (fun _ b => b) x idx upd (ij (row r) c) = upd (ij r c) := by
  have hres := scatter_rows_resultIdx d huw hiw hsd hivd idx row hrow
  unfold Host.scatter
  refine foldl_set_hit (fun n => d.resultIdx? ((⟨2, ![R, C]⟩ : Shape).rowMajor.symm n) idx)
    (fun n => upd ((⟨2, ![R, C]⟩ : Shape).rowMajor.symm n)) _ ?_ ?_ (ij (row r) c) (upd (ij r c)) _ x ?_ ?_
  · intro r n i h i'
    simp only [h]
  · intro r n h
    simp only [h]
  · refine ⟨(⟨2, ![R, C]⟩ : Shape).rowMajor (ij r c), List.mem_finRange _, ?_⟩
    show d.resultIdx? ((⟨2, ![R, C]⟩ : Shape).rowMajor.symm ((⟨2, ![R, C]⟩ : Shape).rowMajor (ij r c))) idx = _
    rw [Equiv.symm_apply_apply, hres]
    rfl
  · intro n _ hn
    show upd ((⟨2, ![R, C]⟩ : Shape).rowMajor.symm n) = upd (ij r c)
    have hn' : d.resultIdx? ((⟨2, ![R, C]⟩ : Shape).rowMajor.symm n) idx = some (ij (row r) c) := hn
    rw [hres] at hn'
    have he := Option.some.inj hn'
    have h0 : row (((⟨2, ![R, C]⟩ : Shape).rowMajor.symm n) 0) = row r := congrFun he 0
    have h1 : ((⟨2, ![R, C]⟩ : Shape).rowMajor.symm n) 1 = c := congrFun he 1
    rw [← ij_eta ((⟨2, ![R, C]⟩ : Shape).rowMajor.symm n)]
    congr 2
    exact hinj h0

/-- SET OF ROWS, a row no update names: it keeps the operand's. (Injectivity of `row` is not needed here.) -/
theorem scatter_rows_miss {α : Type} {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hivd : d.indexVectorDim = 1)
    (x : (⟨2, ![N, C]⟩ : Shape).Idx → α) (idx : IVec ⟨2, ![R, 1]⟩ w) (upd : (⟨2, ![R, C]⟩ : Shape).Idx → α)
    (row : Fin R → Fin N) (hrow : ∀ r, (idx (ixP r)).toInt = ((row r).val : Int))
    (ρ : Fin N) (hρ : ∀ r, row r ≠ ρ) (c : Fin C) :
    Host.scatter d (fun _ b => b) x idx upd (ij ρ c) = x (ij ρ c) := by
  have hres := scatter_rows_resultIdx d huw hiw hsd hivd idx row hrow
  unfold Host.scatter
  refine foldl_set_miss (fun n => d.resultIdx? ((⟨2, ![R, C]⟩ : Shape).rowMajor.symm n) idx)
    (fun n => upd ((⟨2, ![R, C]⟩ : Shape).rowMajor.symm n)) _ ?_ ?_ (ij ρ c) _ x ?_
  · intro r n i h i'
    simp only [h]
  · intro r n h
    simp only [h]
  · intro n _ hn
    have hn' : d.resultIdx? ((⟨2, ![R, C]⟩ : Shape).rowMajor.symm n) idx = some (ij ρ c) := hn
    rw [hres] at hn'
    exact hρ _ (congrFun (Option.some.inj hn') 0)

end Cert.LibGather
-- ==== Proof.LibGatherSlab.lean ====
/-
  A gather of whole slabs read at an index.

  A take of whole slabs along the leading axis of an [N × C1 × C2] array at R row numbers is a gather whose one
  start-index component names the leading axis (collapsed) and whose two offset axes run over the remaining two:
  result (r, c1, c2) reads (slab `idx r` read signed and clamped into [0, N − 1], c1, c2).
-/
import Idealize.ShloMosaic.Lib.StableHlo.Predicate
import Idealize.ShloMosaic.Lib.ValueIdx
import Idealize.ShloMosaic.PureOps.ShapeOps

namespace Cert.LibGatherSlab

open Idealize.ShloMosaic Idealize.ShloMosaic.StableHlo.Predicate Idealize.ShloMosaic.ValueIdx

/-- TAKE OF SLABS: one collapsed, start-indexed leading axis; the two remaining axes are the offset axes, in order.
    The operand index is read one operand axis at a time: the clamped start plus the batching coordinate plus the
    offset coordinate, each a closed term once the dimension numbers are literal. -/
theorem gather_slabs {α : Type} {N R C1 C2 w : Nat}
    (d : GatherDims ⟨3, ![N, C1, C2]⟩ ⟨2, ![R, 1]⟩ ⟨3, ![R, C1, C2]⟩)
    (hoff : d.offsetDims = [1, 2]) (hcoll : d.collapsedSliceDims = [0]) (hob : d.operandBatchingDims = [])
    (hsim : d.startIndexMap = [0]) (hivd : d.indexVectorDim = 1)
    (x : (⟨3, ![N, C1, C2]⟩ : Shape).Idx → α) (idx : IVec ⟨2, ![R, 1]⟩ w) (r : Fin R) (c1 : Fin C1) (c2 : Fin C2)
    (hN : 0 < N) :
    Host.gather d x idx (ix3 r c1 c2) = x (ix3 ⟨min (idx (ixP r)).toInt.toNat (N - 1), by omega⟩ c1 c2) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    -- the leading axis: collapsed (slice size 1, no offset), no batching; its start is component 0 of the start
    -- index, read at the start-indices index (r, 0) and clamped to [0, N − 1]
    have hsl : ss 0 = 1 := wf.2.2.2.2.2.2.2.2.2.2.2.1 0 (List.mem_singleton.mpr rfl)
    show GatherDims.start _ _ _ 0 + GatherDims.batchCoord _ _ 0 + GatherDims.offCoord _ _ 0 = min _ _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    apply Fin.ext
    match b with
    | ⟨0, _⟩ => rfl
    | ⟨1, _⟩ => rfl
  | ⟨1, _⟩ =>
    -- the first offset axis: not in the start index map (start 0), not batching; the offset coordinate is the
    -- result's coordinate on its first offset axis
    show GatherDims.start _ _ _ 1 + GatherDims.batchCoord _ _ 1 + GatherDims.offCoord _ _ 1 = c1.val
    rw [GatherDims.batchCoord_eq_zero _ _ _ List.not_mem_nil]
    unfold GatherDims.start
    rw [dif_neg (show (1 : Fin 3) ∉ [(0 : Fin 3)] by decide)]
    simp only [Nat.zero_add]
    rfl
  | ⟨2, _⟩ =>
    -- the second offset axis, likewise: the result's coordinate on its second offset axis
    show GatherDims.start _ _ _ 2 + GatherDims.batchCoord _ _ 2 + GatherDims.offCoord _ _ 2 = c2.val
    rw [GatherDims.batchCoord_eq_zero _ _ _ List.not_mem_nil]
    unfold GatherDims.start
    rw [dif_neg (show (2 : Fin 3) ∉ [(0 : Fin 3)] by decide)]
    simp only [Nat.zero_add]
    rfl

end Cert.LibGatherSlab
-- ==== Proof.RefValue.lean ====
/-
  The reference program, read one stage at a time at explicit coordinates, is the adapter function of its arguments.

  With every profile id in range the six row takes read the profile's own row: the id is not negative, so the
  wrap-around select keeps it, and read signed and clamped to the last profile it is still itself.  Above the takes
  the stages follow the specification's layers one for one: the bottleneck activations, the residual row, its mean,
  the centred row, its variance, and the normalised row scaled and shifted.
-/
import proofs.«417159_j6408091205681_2_alg».proof.Proof.Gen.ReferenceIdeal.Read
import proofs.«417159_j6408091205681_2_alg».proof.Proof.Spec
import proofs.«417159_j6408091205681_2_alg».proof.Proof.LibGather
import proofs.«417159_j6408091205681_2_alg».proof.Proof.LibGatherSlab
import Idealize.ShloMosaic.Lib.ValueIdx
import Idealize.ShloMosaic.Lib.StableHlo.Predicate
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo.Predicate
open Cert.Spec (rowOf)

/-! ## Words: a profile id in range -/

/-- An id in range is not negative: the signed comparison with 0 fails and the select keeps the id. -/
theorem select_id (w : BitVec 32) (hw : w.toNat < 8) :
    Scalar.select (IntOp.cmpi .slt w 0#32) (IntOp.addi w 8#32) w = w := by
  have h : IntOp.cmpi .slt w 0#32 = 0#1 := eq_zero_of_ne_one fun h1 => by
    have h2 := (slt_iff_toNat (a := w) (b := 0#32) (by omega) (by decide)).mp h1
    exact Nat.not_lt_zero _ h2
  rw [h, select_zero]

/-- A start index that is an id in range, read signed and clamped to the last profile, is the profile the
    specification names. -/
theorem clamp_id (ids : IVec S16 32) (b : Fin 16) (hb : (ids (ix1 b)).toNat < 8) (w : BitVec 32)
    (hw : w = ids (ix1 b)) (h : min w.toInt.toNat (8 - 1) < 8) :
    (⟨min w.toInt.toNat (8 - 1), h⟩ : Fin 8) = rowOf ids b := by
  subst hw
  apply Fin.ext
  show min (ids (ix1 b)).toInt.toNat (8 - 1) = min (ids (ix1 b)).toNat 7
  rw [toInt_eq_toNat_of_lt (by omega), Int.toNat_natCast]

/-- The two spellings of a rank-2 index from its coordinates agree. -/
theorem ij_eq_ix2 {n m : Nat} (p : Fin n) (q : Fin m) : ij p q = ix2 p q := by
  funext a; match a with | ⟨0, _⟩ => rfl | ⟨1, _⟩ => rfl

variable (x0 : FVec Ideal S16x2048x1024 .f32) (x1 : IVec S16 32) (x2 : FVec Ideal S8x1024x128 .f32)
  (x3 : FVec Ideal S8x128 .f32) (x4 : FVec Ideal S8x128x1024 .f32) (x5 x6 x7 : FVec Ideal S8x1024 .f32)

/-! ## The start indices of the six takes: the id itself -/

theorem start_v5 (b : Fin 16) (hb : (x1 (ix1 b)).toNat < 8) : val_main_v5 (F := Ideal) x1 (ixP b) = x1 (ix1 b) := by
  have e : idx_main_v5 (ixP b) = ix1 b := funext fun a => by match a with | ⟨0, _⟩ => rfl
  rw [val_main_v5_apply, e, val_main_v4_apply, val_main_v1_apply, val_main_v3_apply, val_main_v0_apply,
    val_main_v2_apply, val_main_c_apply, val_main_c_0_apply]
  exact select_id _ hb

theorem start_v12 (b : Fin 16) (hb : (x1 (ix1 b)).toNat < 8) : val_main_v12 (F := Ideal) x1 (ixP b) = x1 (ix1 b) := by
  have e : idx_main_v12 (ixP b) = ix1 b := funext fun a => by match a with | ⟨0, _⟩ => rfl
  rw [val_main_v12_apply, e, val_main_v11_apply, val_main_v8_apply, val_main_v10_apply, val_main_v7_apply,
    val_main_v9_apply, val_main_c_1_apply, val_main_c_2_apply]
  exact select_id _ hb

theorem start_v20 (b : Fin 16) (hb : (x1 (ix1 b)).toNat < 8) : val_main_v20 (F := Ideal) x1 (ixP b) = x1 (ix1 b) := by
  have e : idx_main_v20 (ixP b) = ix1 b := funext fun a => by match a with | ⟨0, _⟩ => rfl
  rw [val_main_v20_apply, e, val_main_v19_apply, val_main_v16_apply, val_main_v18_apply, val_main_v15_apply,
    val_main_v17_apply, val_main_c_3_apply, val_main_c_4_apply]
  exact select_id _ hb

theorem start_v27 (b : Fin 16) (hb : (x1 (ix1 b)).toNat < 8) : val_main_v27 (F := Ideal) x1 (ixP b) = x1 (ix1 b) := by
  have e : idx_main_v27 (ixP b) = ix1 b := funext fun a => by match a with | ⟨0, _⟩ => rfl
  rw [val_main_v27_apply, e, val_main_v26_apply, val_main_v23_apply, val_main_v25_apply, val_main_v22_apply,
    val_main_v24_apply, val_main_c_5_apply, val_main_c_6_apply]
  exact select_id _ hb

theorem start_v35 (b : Fin 16) (hb : (x1 (ix1 b)).toNat < 8) : val_main_v35 (F := Ideal) x1 (ixP b) = x1 (ix1 b) := by
  have e : idx_main_v35 (ixP b) = ix1 b := funext fun a => by match a with | ⟨0, _⟩ => rfl
  rw [val_main_v35_apply, e, val_main_v34_apply, val_main_v31_apply, val_main_v33_apply, val_main_v30_apply,
    val_main_v32_apply, val_main_c_7_apply, val_main_c_8_apply]
  exact select_id _ hb

theorem start_v43 (b : Fin 16) (hb : (x1 (ix1 b)).toNat < 8) : val_main_v43 (F := Ideal) x1 (ixP b) = x1 (ix1 b) := by
  have e : idx_main_v43 (ixP b) = ix1 b := funext fun a => by match a with | ⟨0, _⟩ => rfl
  rw [val_main_v43_apply, e, val_main_v42_apply, val_main_v39_apply, val_main_v41_apply, val_main_v38_apply,
    val_main_v40_apply, val_main_c_9_apply, val_main_c_10_apply]
  exact select_id _ hb

/-! ## The six takes: the row of the batch row's profile -/

/-- The down projection's slab. -/
theorem take_v6 (b : Fin 16) (j : Fin 1024) (k : Fin 128) (hb : (x1 (ix1 b)).toNat < 8) :
    val_main_v6 (F := Ideal) x1 x2 (ix3 b j k) = x2 (ix3 (rowOf x1 b) j k) := by
  have h := Cert.LibGatherSlab.gather_slabs gather_S8x1024x128_S16x1_S16x1024x128_12_0_n_n_0_1_11024128 rfl rfl rfl rfl rfl
    x2 (val_main_v5 (F := Ideal) x1) b j k (by decide)
  rw [clamp_id x1 b hb _ (start_v5 x1 b hb)] at h
  exact h

/-- The down projection's bias row. -/
theorem take_v13 (b : Fin 16) (k : Fin 128) (hb : (x1 (ix1 b)).toNat < 8) :
    val_main_v13 (F := Ideal) x1 x3 (ix2 b k) = x3 (ix2 (rowOf x1 b) k) := by
  have h := Cert.LibGather.gather_rows gather_S8x128_S16x1_S16x128_1_0_n_n_0_1_1128 rfl rfl rfl rfl rfl
    x3 (val_main_v12 (F := Ideal) x1) b k (by decide)
  rw [clamp_id x1 b hb _ (start_v12 x1 b hb), ij_eq_ix2, ij_eq_ix2] at h
  exact h

/-- The up projection's slab. -/
theorem take_v21 (b : Fin 16) (k : Fin 128) (h : Fin 1024) (hb : (x1 (ix1 b)).toNat < 8) :
    val_main_v21 (F := Ideal) x1 x4 (ix3 b k h) = x4 (ix3 (rowOf x1 b) k h) := by
  have h' := Cert.LibGatherSlab.gather_slabs gather_S8x128x1024_S16x1_S16x128x1024_12_0_n_n_0_1_11281024 rfl rfl rfl rfl rfl
    x4 (val_main_v20 (F := Ideal) x1) b k h (by decide)
  rw [clamp_id x1 b hb _ (start_v20 x1 b hb)] at h'
  exact h'

/-- The up projection's bias row. -/
theorem take_v28 (b : Fin 16) (h : Fin 1024) (hb : (x1 (ix1 b)).toNat < 8) :
    val_main_v28 (F := Ideal) x1 x5 (ix2 b h) = x5 (ix2 (rowOf x1 b) h) := by
  have h' := Cert.LibGather.gather_rows gather_S8x1024_S16x1_S16x1024_1_0_n_n_0_1_11024 rfl rfl rfl rfl rfl
    x5 (val_main_v27 (F := Ideal) x1) b h (by decide)
  rw [clamp_id x1 b hb _ (start_v27 x1 b hb), ij_eq_ix2, ij_eq_ix2] at h'
  exact h'

/-- The normalisation's scale row. -/
theorem take_v36 (b : Fin 16) (h : Fin 1024) (hb : (x1 (ix1 b)).toNat < 8) :
    val_main_v36 (F := Ideal) x1 x6 (ix2 b h) = x6 (ix2 (rowOf x1 b) h) := by
  have h' := Cert.LibGather.gather_rows gather_S8x1024_S16x1_S16x1024_1_0_n_n_0_1_11024 rfl rfl rfl rfl rfl
    x6 (val_main_v35 (F := Ideal) x1) b h (by decide)
  rw [clamp_id x1 b hb _ (start_v35 x1 b hb), ij_eq_ix2, ij_eq_ix2] at h'
  exact h'

/-- The normalisation's shift row. -/
theorem take_v44 (b : Fin 16) (h : Fin 1024) (hb : (x1 (ix1 b)).toNat < 8) :
    val_main_v44 (F := Ideal) x1 x7 (ix2 b h) = x7 (ix2 (rowOf x1 b) h) := by
  have h' := Cert.LibGather.gather_rows gather_S8x1024_S16x1_S16x1024_1_0_n_n_0_1_11024 rfl rfl rfl rfl rfl
    x7 (val_main_v43 (F := Ideal) x1) b h (by decide)
  rw [clamp_id x1 b hb _ (start_v43 x1 b hb), ij_eq_ix2, ij_eq_ix2] at h'
  exact h'

/-! ## The taken rows broadcast over the sequence axis -/

theorem bias_v47 (b : Fin 16) (s : Fin 2048) (k : Fin 128) (hb : (x1 (ix1 b)).toNat < 8) :
    val_main_v47 (F := Ideal) x1 x3 (ix3 b s k) = x3 (ix2 (rowOf x1 b) k) := by
  have e47 : idx_main_v47 (ix3 b s k) = ix3 b (0 : Fin 1) k := funext fun a => by
    match a with | ⟨0, _⟩ => rfl | ⟨1, _⟩ => rfl | ⟨2, _⟩ => rfl
  have e14 : idx_main_v14 (ix3 b (0 : Fin 1) k) = ix2 b k := funext fun a => by
    match a with | ⟨0, _⟩ => rfl | ⟨1, _⟩ => rfl
  rw [val_main_v47_apply, e47, val_main_v14_apply, e14, take_v13 x1 x3 b k hb]

theorem bias_v52 (b : Fin 16) (s : Fin 2048) (h : Fin 1024) (hb : (x1 (ix1 b)).toNat < 8) :
    val_main_v52 (F := Ideal) x1 x5 (ix3 b s h) = x5 (ix2 (rowOf x1 b) h) := by
  have e52 : idx_main_v52 (ix3 b s h) = ix3 b (0 : Fin 1) h := funext fun a => by
    match a with | ⟨0, _⟩ => rfl | ⟨1, _⟩ => rfl | ⟨2, _⟩ => rfl
  have e29 : idx_main_v29 (ix3 b (0 : Fin 1) h) = ix2 b h := funext fun a => by
    match a with | ⟨0, _⟩ => rfl | ⟨1, _⟩ => rfl
  rw [val_main_v52_apply, e52, val_main_v29_apply, e29, take_v28 x1 x5 b h hb]

theorem scale_v72 (b : Fin 16) (s : Fin 2048) (h : Fin 1024) (hb : (x1 (ix1 b)).toNat < 8) :
    val_main_v72 (F := Ideal) x1 x6 (ix3 b s h) = x6 (ix2 (rowOf x1 b) h) := by
  have e72 : idx_main_v72 (ix3 b s h) = ix3 b (0 : Fin 1) h := funext fun a => by
    match a with | ⟨0, _⟩ => rfl | ⟨1, _⟩ => rfl | ⟨2, _⟩ => rfl
  have e37 : idx_main_v37 (ix3 b (0 : Fin 1) h) = ix2 b h := funext fun a => by
    match a with | ⟨0, _⟩ => rfl | ⟨1, _⟩ => rfl
  rw [val_main_v72_apply, e72, val_main_v37_apply, e37, take_v36 x1 x6 b h hb]

theorem shift_v74 (b : Fin 16) (s : Fin 2048) (h : Fin 1024) (hb : (x1 (ix1 b)).toNat < 8) :
    val_main_v74 (F := Ideal) x1 x7 (ix3 b s h) = x7 (ix2 (rowOf x1 b) h) := by
  have e74 : idx_main_v74 (ix3 b s h) = ix3 b (0 : Fin 1) h := funext fun a => by
    match a with | ⟨0, _⟩ => rfl | ⟨1, _⟩ => rfl | ⟨2, _⟩ => rfl
  have e45 : idx_main_v45 (ix3 b (0 : Fin 1) h) = ix2 b h := funext fun a => by
    match a with | ⟨0, _⟩ => rfl | ⟨1, _⟩ => rfl
  rw [val_main_v74_apply, e74, val_main_v45_apply, e45, take_v44 x1 x7 b h hb]

/-! ## Batch row b's arguments, as the specification's row takes them -/

/-- Batch row b's activations. -/
abbrev rowX (b : Fin 16) : Fin 2048 → Fin 1024 → EReal := fun s j => x0 (ix3 b s j)
/-- The down projection of b's profile. -/
abbrev rowWd (b : Fin 16) : Fin 1024 → Fin 128 → EReal := fun j k => x2 (ix3 (rowOf x1 b) j k)
/-- Its bias. -/
abbrev rowBd (b : Fin 16) : Fin 128 → EReal := fun k => x3 (ix2 (rowOf x1 b) k)
/-- The up projection of b's profile. -/
abbrev rowWu (b : Fin 16) : Fin 128 → Fin 1024 → EReal := fun k h => x4 (ix3 (rowOf x1 b) k h)
/-- Its bias. -/
abbrev rowBu (b : Fin 16) : Fin 1024 → EReal := fun h => x5 (ix2 (rowOf x1 b) h)
/-- The normalisation's scale of b's profile. -/
abbrev rowGamma (b : Fin 16) : Fin 1024 → EReal := fun h => x6 (ix2 (rowOf x1 b) h)
/-- The normalisation's shift of b's profile. -/
abbrev rowBeta (b : Fin 16) : Fin 1024 → EReal := fun h => x7 (ix2 (rowOf x1 b) h)

/-! ## The layers -/

/-- The bottleneck activations: the down projection contracted over the hidden axis, the bias, the maximum with 0. -/
theorem hid_eq (b : Fin 16) (s : Fin 2048) (k : Fin 128) (hb : (x1 (ix1 b)).toNat < 8) :
    val_main_v49 (F := Ideal) x0 x1 x2 x3 (ix3 b s k)
      = Cert.Spec.hid (rowX x0 b) (rowWd x1 x2 b) (rowBd x1 x3 b) s k := by
  have el : ∀ j : Fin 1024, lidx_main_v46 (ix3 b s k) j = ix3 b s j := fun j => funext fun a => by
    match a with | ⟨0, _⟩ => rfl | ⟨1, _⟩ => rfl | ⟨2, _⟩ => rfl
  have er : ∀ j : Fin 1024, ridx_main_v46 (ix3 b s k) j = ix3 b j k := fun j => funext fun a => by
    match a with | ⟨0, _⟩ => rfl | ⟨1, _⟩ => rfl | ⟨2, _⟩ => rfl
  have hsum : (∑ j : Fin 1024, x0 (lidx_main_v46 (ix3 b s k) j) * val_main_v6 (F := Ideal) x1 x2 (ridx_main_v46 (ix3 b s k) j))
      = ∑ j : Fin 1024, x0 (ix3 b s j) * x2 (ix3 (rowOf x1 b) j k) :=
    Finset.sum_congr rfl fun j _ => by rw [el j, er j, take_v6 x1 x2 b j k hb]
  rw [val_main_v49_apply, val_main_v48_apply, val_main_v46_apply, hsum, bias_v47 x1 x3 b s k hb,
    val_main_call0_v0_apply, val_main_call0_cst_apply]
  rfl

/-- The residual row: the input plus the up projection of the activations, then the bias. -/
theorem res_eq (b : Fin 16) (s : Fin 2048) (h : Fin 1024) (hb : (x1 (ix1 b)).toNat < 8) :
    val_main_v53 (F := Ideal) x0 x1 x2 x3 x4 x5 (ix3 b s h)
      = Cert.Spec.res (rowX x0 b) (rowWd x1 x2 b) (rowBd x1 x3 b) (rowWu x1 x4 b) (rowBu x1 x5 b) s h := by
  have el : ∀ k : Fin 128, lidx_main_v50 (ix3 b s h) k = ix3 b s k := fun k => funext fun a => by
    match a with | ⟨0, _⟩ => rfl | ⟨1, _⟩ => rfl | ⟨2, _⟩ => rfl
  have er : ∀ k : Fin 128, ridx_main_v50 (ix3 b s h) k = ix3 b k h := fun k => funext fun a => by
    match a with | ⟨0, _⟩ => rfl | ⟨1, _⟩ => rfl | ⟨2, _⟩ => rfl
  have hsum : (∑ k : Fin 128, val_main_v49 (F := Ideal) x0 x1 x2 x3 (lidx_main_v50 (ix3 b s h) k)
        * val_main_v21 (F := Ideal) x1 x4 (ridx_main_v50 (ix3 b s h) k))
      = ∑ k : Fin 128, Cert.Spec.hid (rowX x0 b) (rowWd x1 x2 b) (rowBd x1 x3 b) s k * x4 (ix3 (rowOf x1 b) k h) :=
    Finset.sum_congr rfl fun k _ => by rw [el k, er k, hid_eq x0 x1 x2 x3 b s k hb, take_v21 x1 x4 b k h hb]
  rw [val_main_v53_apply, val_main_v51_apply, val_main_v50_apply, hsum, bias_v52 x1 x5 b s h hb]
  rfl

/-- The mean of the residual row: the sum from the zero word, over the width's word. -/
theorem mean_eq (b : Fin 16) (s : Fin 2048) (hb : (x1 (ix1 b)).toNat < 8) :
    val_main_v57 (F := Ideal) x0 x1 x2 x3 x4 x5 (ix3 b s (0 : Fin 1))
      = Cert.Spec.mean (rowX x0 b) (rowWd x1 x2 b) (rowBd x1 x3 b) (rowWu x1 x4 b) (rowBu x1 x5 b) s := by
  have e55 : idx_main_v55 (ix3 b s (0 : Fin 1)) = ix2 b s := funext fun a => by
    match a with | ⟨0, _⟩ => rfl | ⟨1, _⟩ => rfl
  have hsum : (∑ h : Fin 1024, val_main_v53 (F := Ideal) x0 x1 x2 x3 x4 x5 (idx_main_v54 (ix2 b s) h))
      = ∑ h : Fin 1024, Cert.Spec.res (rowX x0 b) (rowWd x1 x2 b) (rowBd x1 x3 b) (rowWu x1 x4 b) (rowBu x1 x5 b) s h :=
    Finset.sum_congr rfl fun h _ => by
      have e54 : idx_main_v54 (ix2 b s) h = ix3 b s h := funext fun a => by
        match a with | ⟨0, _⟩ => rfl | ⟨1, _⟩ => rfl | ⟨2, _⟩ => rfl
      rw [e54, res_eq x0 x1 x2 x3 x4 x5 b s h hb]
  rw [val_main_v57_apply, val_main_v55_apply, e55, val_main_v54_apply, hsum, val_main_cst_apply, val_main_v56_apply,
    val_main_cst_11_apply, Ideal.ofBits_def, Ideal.ofBits_zero_f32, zero_add]
  rfl

/-- The centred row (the stage the variance squares). -/
theorem cen59_eq (b : Fin 16) (s : Fin 2048) (h : Fin 1024) (hb : (x1 (ix1 b)).toNat < 8) :
    val_main_v59 (F := Ideal) x0 x1 x2 x3 x4 x5 (ix3 b s h)
      = Cert.Spec.cen (rowX x0 b) (rowWd x1 x2 b) (rowBd x1 x3 b) (rowWu x1 x4 b) (rowBu x1 x5 b) s h := by
  have e58 : idx_main_v58 (ix3 b s h) = ix3 b s (0 : Fin 1) := funext fun a => by
    match a with | ⟨0, _⟩ => rfl | ⟨1, _⟩ => rfl | ⟨2, _⟩ => rfl
  rw [val_main_v59_apply, val_main_v58_apply, e58, res_eq x0 x1 x2 x3 x4 x5 b s h hb, mean_eq x0 x1 x2 x3 x4 x5 b s hb]
  rfl

/-- The centred row (the stage the result scales). -/
theorem cen66_eq (b : Fin 16) (s : Fin 2048) (h : Fin 1024) (hb : (x1 (ix1 b)).toNat < 8) :
    val_main_v66 (F := Ideal) x0 x1 x2 x3 x4 x5 (ix3 b s h)
      = Cert.Spec.cen (rowX x0 b) (rowWd x1 x2 b) (rowBd x1 x3 b) (rowWu x1 x4 b) (rowBu x1 x5 b) s h := by
  have e65 : idx_main_v65 (ix3 b s h) = ix3 b s (0 : Fin 1) := funext fun a => by
    match a with | ⟨0, _⟩ => rfl | ⟨1, _⟩ => rfl | ⟨2, _⟩ => rfl
  rw [val_main_v66_apply, val_main_v65_apply, e65, res_eq x0 x1 x2 x3 x4 x5 b s h hb, mean_eq x0 x1 x2 x3 x4 x5 b s hb]
  rfl

/-- The variance of the residual row: the sum of the squared centred row from the zero word, over the width's word. -/
theorem var_eq (b : Fin 16) (s : Fin 2048) (hb : (x1 (ix1 b)).toNat < 8) :
    val_main_v64 (F := Ideal) x0 x1 x2 x3 x4 x5 (ix3 b s (0 : Fin 1))
      = Cert.Spec.var (rowX x0 b) (rowWd x1 x2 b) (rowBd x1 x3 b) (rowWu x1 x4 b) (rowBu x1 x5 b) s := by
  have e62 : idx_main_v62 (ix3 b s (0 : Fin 1)) = ix2 b s := funext fun a => by
    match a with | ⟨0, _⟩ => rfl | ⟨1, _⟩ => rfl
  have hsum : (∑ h : Fin 1024, val_main_v60 (F := Ideal) x0 x1 x2 x3 x4 x5 (idx_main_v61 (ix2 b s) h))
      = ∑ h : Fin 1024, Cert.Spec.cen (rowX x0 b) (rowWd x1 x2 b) (rowBd x1 x3 b) (rowWu x1 x4 b) (rowBu x1 x5 b) s h
          * Cert.Spec.cen (rowX x0 b) (rowWd x1 x2 b) (rowBd x1 x3 b) (rowWu x1 x4 b) (rowBu x1 x5 b) s h :=
    Finset.sum_congr rfl fun h _ => by
      have e61 : idx_main_v61 (ix2 b s) h = ix3 b s h := funext fun a => by
        match a with | ⟨0, _⟩ => rfl | ⟨1, _⟩ => rfl | ⟨2, _⟩ => rfl
      rw [e61, val_main_v60_apply, cen59_eq x0 x1 x2 x3 x4 x5 b s h hb]
      rfl
  rw [val_main_v64_apply, val_main_v62_apply, e62, val_main_v61_apply, hsum, val_main_cst_12_apply, val_main_v63_apply,
    val_main_cst_13_apply, Ideal.ofBits_def, Ideal.ofBits_zero_f32, zero_add]
  rfl

/-- One element of the result: the centred row times the reciprocal root of the variance plus ε, scaled and shifted. -/
theorem out_eq (b : Fin 16) (s : Fin 2048) (h : Fin 1024) (hb : (x1 (ix1 b)).toNat < 8) :
    val_main_v75 (F := Ideal) x0 x1 x2 x3 x4 x5 x6 x7 (ix3 b s h)
      = Cert.Spec.outRow (rowX x0 b) (rowWd x1 x2 b) (rowBd x1 x3 b) (rowWu x1 x4 b) (rowBu x1 x5 b)
          (rowGamma x1 x6 b) (rowBeta x1 x7 b) s h := by
  have e70 : idx_main_v70 (ix3 b s h) = ix3 b s (0 : Fin 1) := funext fun a => by
    match a with | ⟨0, _⟩ => rfl | ⟨1, _⟩ => rfl | ⟨2, _⟩ => rfl
  rw [val_main_v75_apply, val_main_v73_apply, val_main_v71_apply, cen66_eq x0 x1 x2 x3 x4 x5 b s h hb,
    val_main_v70_apply, e70, val_main_v69_apply, val_main_v68_apply, var_eq x0 x1 x2 x3 x4 x5 b s hb,
    val_main_v67_apply, val_main_cst_14_apply, scale_v72 x1 x6 b s h hb, shift_v74 x1 x7 b s h hb]
  rfl

/-- With every profile id in range, the reference's result is the adapter function of its arguments. -/
theorem ref_eq_G (x0 : FVec Ideal S16x2048x1024 .f32) (x1 : IVec S16 32) (x2 : FVec Ideal S8x1024x128 .f32)
    (x3 : FVec Ideal S8x128 .f32) (x4 : FVec Ideal S8x128x1024 .f32) (x5 x6 x7 : FVec Ideal S8x1024 .f32)
    (hlt : ∀ b : Fin 16, (x1 (ix1 b)).toNat < 8) :
    val_main_v75 (F := Ideal) x0 x1 x2 x3 x4 x5 x6 x7 = Cert.Spec.G x0 x1 x2 x3 x4 x5 x6 x7 := by
  funext i
  obtain ⟨b, s, h, rfl⟩ : ∃ (b : Fin 16) (s : Fin 2048) (h : Fin 1024), i = ix3 b s h := ⟨i 0, i 1, i 2, eq_ix3 i⟩
  exact out_eq x0 x1 x2 x3 x4 x5 x6 x7 b s h (hlt b)

end Cert.ReferenceIdeal.RefValue

end
-- ==== Proof.lean ====
/-
  The certificate of the per-profile adapter kernel: down projection, ReLU, up projection, residual, LayerNorm, one
  batch row per grid point, the weights of the profile the row's id names.

  The statement carries one conjunct beside finiteness: every profile id is one of the eight profiles, 0 ≤ id < 8.
  Outside it the two programs read different profiles (the kernel clips an id into [0, 7], the reference wraps a negative
  one around); inside it both read profile id. Nothing here needs the float inputs finite: the two sides apply the same
  operations in the same order, so the claim is proved on all extended reals.

  * The frames of the two kernel programs hold once the prefetched table's entries are below 8 (the table-indexed weight
    blocks lie inside their arrays, and the row the body reads of each small table exists): decoded from the precondition.
  * The reference's frame is its run with the result dropped.
  * The kernel's result array is the adapter function of the arguments: each grid point writes its batch row's block of it
    and the blocks tile the array. The reference's last stage is the same function, read index by index.
-/
import proofs.«417159_j6408091205681_2_alg».proof.Defs
import proofs.«417159_j6408091205681_2_alg».proof.Proof.Gen.Kernel
import proofs.«417159_j6408091205681_2_alg».proof.Proof.Gen.Kernel.Skeleton
import proofs.«417159_j6408091205681_2_alg».proof.Proof.Gen.Kernel.Launch
import proofs.«417159_j6408091205681_2_alg».proof.Proof.Gen.Kernel.Points
import proofs.«417159_j6408091205681_2_alg».proof.Proof.Gen.Kernel.Frame
import proofs.«417159_j6408091205681_2_alg».proof.Proof.Gen.KernelIdeal
import proofs.«417159_j6408091205681_2_alg».proof.Proof.Gen.KernelIdeal.Skeleton
import proofs.«417159_j6408091205681_2_alg».proof.Proof.Gen.KernelIdeal.Launch
import proofs.«417159_j6408091205681_2_alg».proof.Proof.Gen.KernelIdeal.Points
import proofs.«417159_j6408091205681_2_alg».proof.Proof.Gen.KernelIdeal.Frame
import proofs.«417159_j6408091205681_2_alg».proof.Proof.Gen.ReferenceIdeal
import proofs.«417159_j6408091205681_2_alg».proof.Proof.Gen.Pre_finite_inputs
import proofs.«417159_j6408091205681_2_alg».proof.Proof.Gen.ReferenceIdeal.Run
import proofs.«417159_j6408091205681_2_alg».proof.Proof.Gen.ReferenceIdeal.Read
import proofs.«417159_j6408091205681_2_alg».proof.Proof.Spec
import proofs.«417159_j6408091205681_2_alg».proof.Proof.PreDecode
import proofs.«417159_j6408091205681_2_alg».proof.Proof.KTables
import proofs.«417159_j6408091205681_2_alg».proof.Proof.KITables
import proofs.«417159_j6408091205681_2_alg».proof.Proof.KValue
import proofs.«417159_j6408091205681_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The precondition read at the profile ids -/

/-- Under the precondition the word-level program's ids are below 8. -/
theorem ids_lt_K (m : (ℓ : Loc Cert.Kernel.nD Cert.Kernel.τ Cert.Kernel.sig) → Buf (Elt Bits) ℓ) (h : Cert.Pre_Kernel m) (b : Fin 16) :
    (Cert.Kernel.Tables.ids0 m (ix1 b)).toNat < 8 :=
  Cert.PreDecode.ids_lt (F := Bits) _ _ _ _ _ _ _ _ (h 0) b

/-- Under the precondition the idealized kernel's ids are below 8. -/
theorem ids_lt_KI (m : (ℓ : Loc Cert.KernelIdeal.nD Cert.KernelIdeal.τ Cert.KernelIdeal.sig) → Buf (Elt Ideal) ℓ) (h : Cert.Pre_KernelIdeal m)
    (b : Fin 16) : (Cert.KernelIdeal.Tables.ids0 m (ix1 b)).toNat < 8 :=
  Cert.PreDecode.ids_lt (F := Ideal) _ _ _ _ _ _ _ _ (h 0) b

/-! ## The claims -/

theorem frame_k : Cert.frame_Kernel := fun m ρ h =>
  Cert.Kernel.Gen.frame m ρ (Cert.Kernel.Tables.ok_of_lt m (ids_lt_K m h))
    (Cert.Kernel.Tables.hyps_of_lt m (ids_lt_K m h) _)

theorem frame_ki : Cert.frame_KernelIdeal := fun m ρ h =>
  Cert.KernelIdeal.Gen.frame m ρ (Cert.KernelIdeal.Tables.ok_of_lt m (ids_lt_KI m h))
    (Cert.KernelIdeal.Tables.hyps_of_lt m (ids_lt_KI m h) _)

theorem frame_ri : Cert.frame_ReferenceIdeal := fun m ρ _ =>
  (θ_run Cert.ReferenceIdeal.defs _ _).mono (fun _ h c => (h c).2) (Cert.ReferenceIdeal.Value.run (F := Ideal) m ρ)

/-- With ids in range the table the kernel reads its profiles from is the ids themselves. -/
theorem table_is_ids (m : (ℓ : Loc Cert.KernelIdeal.nD Cert.KernelIdeal.τ Cert.KernelIdeal.sig) → Buf (Elt Ideal) ℓ)
    (hlt : ∀ b : Fin 16, (Cert.KernelIdeal.Tables.ids0 m (ix1 b)).toNat < 8) :
    (Cert.KernelIdeal.Gen.tbl m 0 : Cert.KernelIdeal.S16.Idx → BitVec 32) = Cert.KernelIdeal.Tables.ids0 m := by
  funext x
  obtain ⟨b, rfl⟩ : ∃ b : Fin 16, x = (ix1 b : Cert.KernelIdeal.S16.Idx) := ⟨_, eq_ix1 (show Cert.KernelIdeal.S16.Idx from x)⟩
  exact Cert.KernelIdeal.Tables.tbl_eq_ids m hlt b

/-- Both idealized programs, from memories agreeing on the arguments, end with the adapter function of the arguments. -/
theorem algebraic : Cert.algebraic_KernelIdeal_ReferenceIdeal := by
  intro m ρ m' ρ' hpre hagree
  have hlt := ids_lt_KI m hpre
  have hO := Cert.KernelIdeal.Tables.ok_of_lt m hlt
  have hH := Cert.KernelIdeal.Tables.hyps_of_lt m hlt hO
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.KValue.run m ρ hO hH)
    obtain rfl : c = 0 := Subsingleton.elim _ _
    rw [table_is_ids m hlt]
  · refine (θ_run Cert.ReferenceIdeal.defs _ _).mono (fun r h c => ⟨(h c).1.trans ?_, (h c).2⟩)
      (Cert.ReferenceIdeal.Value.run (F := Ideal) m' ρ')
    obtain rfl : c = 0 := Subsingleton.elim _ _
    have hlt' : ∀ b : Fin 16, ((m' (((0 : Dev Cert.ReferenceIdeal.nD).tc : Thread Cert.ReferenceIdeal.nD Cert.ReferenceIdeal.τ).loc Cert.ReferenceIdeal.main_arg1) : Cert.ReferenceIdeal.S16.Idx → BitVec 32) (ix1 b)).toNat < 8 := by
      intro b
      rw [(hagree 0).2.1]
      exact hlt b
    rw [Cert.ReferenceIdeal.Read.val_main_v75_eq, Cert.ReferenceIdeal.RefValue.ref_eq_G _ _ _ _ _ _ _ _ hlt',
      (hagree 0).1, (hagree 0).2.1, (hagree 0).2.2.1, (hagree 0).2.2.2.1, (hagree 0).2.2.2.2.1, (hagree 0).2.2.2.2.2.1,
      (hagree 0).2.2.2.2.2.2.1, (hagree 0).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
